-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S262144x16 : Shape := ⟨2, ![262144, 16]⟩
abbrev S85x3 : Shape := ⟨2, ![85, 3]⟩
abbrev S85 : Shape := ⟨1, ![85]⟩
abbrev S16 : Shape := ⟨1, ![16]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S85x3 : S_.BroadcastsInDim S85x3 (![] : Fin 0 → Fin S85x3.rank)
  reducesTo_S85x3_S_d0_1 : S85x3.ReducesTo [0, 1] S_
  bcast_S_S85 : S_.BroadcastsInDim S85 (![] : Fin 0 → Fin S85.rank)
  reducesTo_S85_S_d0 : S85.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S85 1) : IVec S_ 1 :=
  let main_c_5 : IVec S_ 1 := constantI S_ 1 1#1
  let main_v17 : IVec S_ 1 := (fun x v => Host.reduce IntOp.andi x v reducesTo_S85_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S262144x3 .f32) (main_arg1 : FVec F S262144x16 .f32) (main_arg2 : FVec F S85x3 .f32) (main_arg3 : FVec F S85 .f32) (main_arg4 : FVec F S16 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S85x3 .f32 := Host.absf main_arg2
  let main_cst_2 : FVec F S_ .f32 := constant S_ .f32 0x7F800000#32
  let main_v10 : FVec F S85x3 .f32 := broadcastInDim S85x3 ![] bcast_S_S85x3 main_cst_2
  let main_v11 : IVec S85x3 1 := cmpf .olt main_v9 main_v10
  let main_c_3 : IVec S_ 1 := constantI S_ 1 1#1
  let main_v12 : IVec S_ 1 := (fun x v => Host.reduce IntOp.andi x v reducesTo_S85x3_S_d0_1 h_S_) main_v11 main_c_3
  let main_v13 : IVec S_ 1 := andi main_v8 main_v12
  let main_v14 : FVec F S85 .f32 := Host.absf main_arg3
  let main_cst_4 : FVec F S_ .f32 := constant S_ .f32 0x7F800000#32
  let main_v15 : FVec F S85 .f32 := broadcastInDim S85 ![] bcast_S_S85 main_cst_4
  let main_v16 : IVec S85 1 := cmpf .olt main_v14 main_v15
  fn_part1 (F := F) main_arg4 main_v13 main_v16
-- ==== Kernel.lean ====
abbrev S262144x3 : Shape := ⟨2, ![262144, 3]⟩
abbrev S262144x16 : Shape := ⟨2, ![262144, 16]⟩
abbrev S85x3 : Shape := ⟨2, ![85, 3]⟩
abbrev S85 : Shape := ⟨1, ![85]⟩
abbrev S16 : Shape := ⟨1, ![16]⟩
abbrev S3x85 : Shape := ⟨2, ![3, 85]⟩
abbrev S_ : Shape := ⟨0, ![]⟩
abbrev S1x85 : Shape := ⟨2, ![1, 85]⟩
abbrev S1x16 : Shape := ⟨2, ![1, 16]⟩
abbrev S85x16 : Shape := ⟨2, ![85, 16]⟩
abbrev S2048x3 : Shape := ⟨2, ![2048, 3]⟩
abbrev S2048x16 : Shape := ⟨2, ![2048, 16]⟩
abbrev S2048x1 : Shape := ⟨2, ![2048, 1]⟩
abbrev S2048x85 : Shape := ⟨2, ![2048, 85]⟩
abbrev S262144x117 : Shape := ⟨2, ![262144, 117]⟩
abbrev S4096x16 : Shape := ⟨2, ![4096, 16]⟩
abbrev S4096x117 : Shape := ⟨2, ![4096, 117]⟩
abbrev S4096x85 : Shape := ⟨2, ![4096, 85]⟩

abbrev nBuf : Space → Nat
  | .hbm => 15
  | .vmem => 15
  | .smem => 0
  | _ => 0

abbrev bufTy : (tb : Table) → Fin (tcTables nBuf tb) → BufTy
  | .hbm, ⟨0, _⟩ => ⟨S262144x3, .f32⟩
  | .hbm, ⟨1, _⟩ => ⟨S262144x16, .f32⟩
  | .hbm, ⟨2, _⟩ => ⟨S85x3, .f32⟩
  | .hbm, ⟨3, _⟩ => ⟨S85, .f32⟩
  | .hbm, ⟨4, _⟩ => ⟨S16, .f32⟩
  | .hbm, ⟨5, _⟩ => ⟨S3x85, .f32⟩
  | .hbm, ⟨6, _⟩ => ⟨S85x3, .f32⟩
  | .hbm, ⟨7, _⟩ => ⟨S_, .f32⟩
  | .hbm, ⟨8, _⟩ => ⟨S85, .f32⟩
  | .hbm, ⟨9, _⟩ => ⟨S1x85, .f32⟩
  | .hbm, ⟨10, _⟩ => ⟨S85, .f32⟩
  | .hbm, ⟨11, _⟩ => ⟨S1x85, .f32⟩
  | .hbm, ⟨12, _⟩ => ⟨S1x16, .f32⟩
  | .hbm, ⟨13, _⟩ => ⟨S85x16, .f32⟩
  | .hbm, ⟨14, _⟩ => ⟨S262144x117, .f32⟩
  | .local _ .vmem, ⟨0, _⟩ => ⟨S3x85, .f32⟩
  | .local _ .vmem, ⟨1, _⟩ => ⟨S1x85, .f32⟩
  | .local _ .vmem, ⟨2, _⟩ => ⟨S1x85, .f32⟩
  | .local _ .vmem, ⟨3, _⟩ => ⟨S1x16, .f32⟩
  | .local _ .vmem, ⟨4, _⟩ => ⟨S2048x3, .f32⟩
  | .local _ .vmem, ⟨5, _⟩ => ⟨S2048x3, .f32⟩
  | .local _ .vmem, ⟨6, _⟩ => ⟨S2048x16, .f32⟩
  | .local _ .vmem, ⟨7, _⟩ => ⟨S2048x16, .f32⟩
  | .local _ .vmem, ⟨8, _⟩ => ⟨S85x16, .f32⟩
  | .local _ .vmem, ⟨9, _⟩ => ⟨S85x16, .f32⟩
  | .local _ .vmem, ⟨10, _⟩ => ⟨S4096x16, .f32⟩
  | .local _ .vmem, ⟨11, _⟩ => ⟨S4096x16, .f32⟩
  | .local _ .vmem, ⟨12, _⟩ => ⟨S85x16, .f32⟩
  | .local _ .vmem, ⟨13, _⟩ => ⟨S4096x117, .f32⟩
  | .local _ .vmem, ⟨14, _⟩ => ⟨S4096x117, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v50 : BitVec 1 := Scalar.cmpi .eq arg0 c127_i32
  let v51 : BitVec 32 := Scalar.extui v50
  let c0_i32_15 : BitVec 32 := 0#32
  let v52 : BitVec 1 := Scalar.cmpi .ne v51 c0_i32_15
  v52

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x85 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S85x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S85x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x117 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S85x3_S3x85_1_0 : S85x3.Transposes [1, 0] S3x85
  reducesTo_S85x3_S85_d1 : S85x3.ReducesTo [1] S85
  h_S_ : 0 < S_.numel
  shapeCasts_S85_S1x85 : S85.ShapeCasts S1x85
  shapeCasts_S16_S1x16 : S16.ShapeCasts S1x16
  inb_S85x16_S85x16_0_0 : ∀ a, (![0, 0] : Fin 2 → Nat) a + S85x16.size a ≤ S85x16.size a
  h_S85x16 : 0 < S85x16.numel
  shapeCasts_S85x16_S85x16 : S85x16.ShapeCasts S85x16
  inb_S2048x3_S2048x3_0_0 : ∀ a, (![0, 0] : Fin 2 → Nat) a + S2048x3.size a ≤ S2048x3.size a
  h_S2048x3 : 0 < S2048x3.numel
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  inb_S3x85_S3x85_0_0 : ∀ a, (![0, 0] : Fin 2 → Nat) a + S3x85.size a ≤ S3x85.size a
  h_S3x85 : 0 < S3x85.numel
  shapeCasts_S3x85_S3x85 : S3x85.ShapeCasts S3x85
  slices_S3x85_o0_0_S1x85 : S3x85.Slices ![0, 0] S1x85
  slices_S3x85_o1_0_S1x85 : S3x85.Slices ![1, 0] S1x85
  slices_S3x85_o2_0_S1x85 : S3x85.Slices ![2, 0] S1x85
  broadcasts_S2048x1_S2048x85 : S2048x1.Broadcasts S2048x85
  broadcasts_S1x85_S2048x85 : S1x85.Broadcasts S2048x85
  inb_S1x85_S1x85_0_0 : ∀ a, (![0, 0] : Fin 2 → Nat) a + S1x85.size a ≤ S1x85.size a
  h_S1x85 : 0 < S1x85.numel
  shapeCasts_S1x85_S1x85 : S1x85.ShapeCasts S1x85
  inb_S2048x16_S2048x16_0_0 : ∀ a, (![0, 0] : Fin 2 → Nat) a + S2048x16.size a ≤ S2048x16.size a
  h_S2048x16 : 0 < S2048x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S85x16 : S1x16.Broadcasts S85x16
  inb_S4096x16_S4096x16_0_0 : ∀ a, (![0, 0] : Fin 2 → Nat) a + S4096x16.size a ≤ S4096x16.size a
  h_S4096x16 : 0 < S4096x16.numel
  concatenates_S4096x16_S4096x85_S4096x16_S4096x117_d1 : Shape.Concatenates [S4096x16, S4096x85, S4096x16] S4096x117 1
  inb_S4096x117_S4096x117_0_0 : ∀ a, (![0, 0] : Fin 2 → Nat) a + S4096x117.size a ≤ S4096x117.size a
  h_S4096x117 : 0 < S4096x117.numel
  dot_S2048x85_S2048x16_S85x16_0_0_1_1_n_n_wf : DotDims.WF S2048x85 S2048x16 S85x16 [0] [0] [1] [1] [] []
  dot_S4096x16_S85x16_S4096x85_1_1_0_0_n_n_wf : DotDims.WF S4096x16 S85x16 S4096x85 [1] [1] [0] [0] [] []
  dot_S4096x85_S85x16_S4096x16_1_0_0_1_n_n_wf : DotDims.WF S4096x85 S85x16 S4096x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x85.size a ≤ S3x85.size a
  hwx0_0 : ∀ i : grid0.Coords, EltTy.bits .f32 = 32 ∨ (Rect.block (s := S3x85) S3x85.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x85.size a ≤ S1x85.size a
  hwx0_1 : ∀ i : grid0.Coords, EltTy.bits .f32 = 32 ∨ (Rect.block (s := S1x85) S1x85.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x85.size a ≤ S1x85.size a
  hwx0_2 : ∀ i : grid0.Coords, EltTy.bits .f32 = 32 ∨ (Rect.block (s := S1x85) S1x85.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x3.size a ≤ S262144x3.size a
  hwx0_4 : ∀ i : grid0.Coords, EltTy.bits .f32 = 32 ∨ (Rect.block (s := S262144x3) S2048x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x16.size a ≤ S262144x16.size a
  hwx0_5 : ∀ i : grid0.Coords, EltTy.bits .f32 = 32 ∨ (Rect.block (s := S262144x16) S2048x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S85x16.size a ≤ S85x16.size a
  hwx0_6 : ∀ i : grid0.Coords, EltTy.bits .f32 = 32 ∨ (Rect.block (s := S85x16) S85x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S262144x16.size a
  hwx1_0 : ∀ i : grid1.Coords, EltTy.bits .f32 = 32 ∨ (Rect.block (s := S262144x16) S4096x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S85x16.size a ≤ S85x16.size a
  hwx1_1 : ∀ i : grid1.Coords, EltTy.bits .f32 = 32 ∨ (Rect.block (s := S85x16) S85x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x117.size a ≤ S262144x117.size a
  hwx1_2 : ∀ i : grid1.Coords, EltTy.bits .f32 = 32 ∨ (Rect.block (s := S262144x117) S4096x117.size (cc1_transform_2 i) (hinb1_2 i)).WholeWords (EltTy.packing .f32)

variable [Facts₀]

def dot_S2048x85_S2048x16_S85x16_0_0_1_1_n_n : DotDims S2048x85 S2048x16 S85x16 where
  lhsContracting := [0]
  rhsContracting := [0]
  lhsNonContracting := [1]
  rhsNonContracting := [1]
  lhsBatch := []
  rhsBatch := []
  wf := dot_S2048x85_S2048x16_S85x16_0_0_1_1_n_n_wf
def dot_S4096x16_S85x16_S4096x85_1_1_0_0_n_n : DotDims S4096x16 S85x16 S4096x85 where
  lhsContracting := [1]
  rhsContracting := [1]
  lhsNonContracting := [0]
  rhsNonContracting := [0]
  lhsBatch := []
  rhsBatch := []
  wf := dot_S4096x16_S85x16_S4096x85_1_1_0_0_n_n_wf
def dot_S4096x85_S85x16_S4096x16_1_0_0_1_n_n : DotDims S4096x85 S85x16 S4096x16 where
  lhsContracting := [1]
  rhsContracting := [0]
  lhsNonContracting := [0]
  rhsNonContracting := [1]
  lhsBatch := []
  rhsBatch := []
  wf := dot_S4096x85_S85x16_S4096x16_1_0_0_1_n_n_wf

abbrev win0_0 : Pipeline.Window sig grid0 :=
  Pipeline.Window.ofSpec (Memref.whole main_v0) S3x85.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x85.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x85.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2048x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S2048x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S85x16.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S85x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4096x117.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x3 : Shape := ⟨2, ![262144, 3]⟩
abbrev S262144x16 : Shape := ⟨2, ![262144, 16]⟩
abbrev S85x3 : Shape := ⟨2, ![85, 3]⟩
abbrev S85 : Shape := ⟨1, ![85]⟩
abbrev S16 : Shape := ⟨1, ![16]⟩
abbrev S1x262144x3 : Shape := ⟨3, ![1, 262144, 3]⟩
abbrev S85x1x3 : Shape := ⟨3, ![85, 1, 3]⟩
abbrev S85x262144x3 : Shape := ⟨3, ![85, 262144, 3]⟩
abbrev S_ : Shape := ⟨0, ![]⟩
abbrev S85x262144 : Shape := ⟨2, ![85, 262144]⟩
abbrev S85x1 : Shape := ⟨2, ![85, 1]⟩
abbrev S85x16 : Shape := ⟨2, ![85, 16]⟩
abbrev S1x16 : Shape := ⟨2, ![1, 16]⟩
abbrev S16x85 : Shape := ⟨2, ![16, 85]⟩
abbrev S262144x85 : Shape := ⟨2, ![262144, 85]⟩
abbrev S262144x117 : Shape := ⟨2, ![262144, 117]⟩

abbrev nBuf : Space → Nat
  | .hbm => 26
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S262144x16, .f32⟩
  | .hbm, ⟨2, _⟩ => ⟨S85x3, .f32⟩
  | .hbm, ⟨3, _⟩ => ⟨S85, .f32⟩
  | .hbm, ⟨4, _⟩ => ⟨S16, .f32⟩
  | .hbm, ⟨5, _⟩ => ⟨S1x262144x3, .f32⟩
  | .hbm, ⟨6, _⟩ => ⟨S85x1x3, .f32⟩
  | .hbm, ⟨7, _⟩ => ⟨S85x262144x3, .f32⟩
  | .hbm, ⟨8, _⟩ => ⟨S85x262144x3, .f32⟩
  | .hbm, ⟨9, _⟩ => ⟨S85x262144x3, .f32⟩
  | .hbm, ⟨10, _⟩ => ⟨S85x262144x3, .f32⟩
  | .hbm, ⟨11, _⟩ => ⟨S_, .f32⟩
  | .hbm, ⟨12, _⟩ => ⟨S85x262144, .f32⟩
  | .hbm, ⟨13, _⟩ => ⟨S85, .f32⟩
  | .hbm, ⟨14, _⟩ => ⟨S85x1, .f32⟩
  | .hbm, ⟨15, _⟩ => ⟨S85x262144, .f32⟩
  | .hbm, ⟨16, _⟩ => ⟨S85x262144, .f32⟩
  | .hbm, ⟨17, _⟩ => ⟨S85x262144, .f32⟩
  | .hbm, ⟨18, _⟩ => ⟨S85x16, .f32⟩
  | .hbm, ⟨19, _⟩ => ⟨S1x16, .f32⟩
  | .hbm, ⟨20, _⟩ => ⟨S85x16, .f32⟩
  | .hbm, ⟨21, _⟩ => ⟨S85x16, .f32⟩
  | .hbm, ⟨22, _⟩ => ⟨S16x85, .f32⟩
  | .hbm, ⟨23, _⟩ => ⟨S262144x85, .f32⟩
  | .hbm, ⟨24, _⟩ => ⟨S262144x16, .f32⟩
  | .hbm, ⟨25, _⟩ => ⟨S262144x117, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S262144x3_S1x262144x3_1_2 : S262144x3.BroadcastsInDim S1x262144x3 (![1, 2] : Fin 2 → Fin S1x262144x3.rank)
  bcast_S85x3_S85x1x3_0_2 : S85x3.BroadcastsInDim S85x1x3 (![0, 2] : Fin 2 → Fin S85x1x3.rank)
  bcast_S1x262144x3_S85x262144x3_0_1_2 : S1x262144x3.BroadcastsInDim S85x262144x3 (![0, 1, 2] : Fin 3 → Fin S85x262144x3.rank)
  bcast_S85x1x3_S85x262144x3_0_1_2 : S85x1x3.BroadcastsInDim S85x262144x3 (![0, 1, 2] : Fin 3 → Fin S85x262144x3.rank)
  reducesTo_S85x262144x3_S85x262144_d2 : S85x262144x3.ReducesTo [2] S85x262144
  h_S_ : 0 < S_.numel
  bcast_S85_S85x1_0 : S85.BroadcastsInDim S85x1 (![0] : Fin 1 → Fin S85x1.rank)
  bcast_S85x1_S85x262144_0_1 : S85x1.BroadcastsInDim S85x262144 (![0, 1] : Fin 2 → Fin S85x262144.rank)
  bcast_S16_S1x16_1 : S16.BroadcastsInDim S1x16 (![1] : Fin 1 → Fin S1x16.rank)
  bcast_S1x16_S85x16_0_1 : S1x16.BroadcastsInDim S85x16 (![0, 1] : Fin 2 → Fin S85x16.rank)
  transposes_S85x16_S16x85_1_0 : S85x16.Transposes [1, 0] S16x85
  concatenates_S262144x16_S262144x85_S262144x16_S262144x117_d1 : Shape.Concatenates [S262144x16, S262144x85, S262144x16] S262144x117 1
  dot_S85x262144_S262144x16_S85x16_1_0_0_1_n_n_wf : DotDims.WF S85x262144 S262144x16 S85x16 [1] [0] [0] [1] [] []
  dot_S262144x16_S16x85_S262144x85_1_0_0_1_n_n_wf : DotDims.WF S262144x16 S16x85 S262144x85 [1] [0] [0] [1] [] []
  dot_S262144x85_S85x16_S262144x16_1_0_0_1_n_n_wf : DotDims.WF S262144x85 S85x16 S262144x16 [1] [0] [0] [1] [] []

variable [Facts₀]

def dot_S85x262144_S262144x16_S85x16_1_0_0_1_n_n : DotDims S85x262144 S262144x16 S85x16 where
  lhsContracting := [1]
  rhsContracting := [0]
  lhsNonContracting := [0]
  rhsNonContracting := [1]
  lhsBatch := []
  rhsBatch := []
  wf := dot_S85x262144_S262144x16_S85x16_1_0_0_1_n_n_wf
def dot_S262144x16_S16x85_S262144x85_1_0_0_1_n_n : DotDims S262144x16 S16x85 S262144x85 where
  lhsContracting := [1]
  rhsContracting := [0]
  lhsNonContracting := [0]
  rhsNonContracting := [1]
  lhsBatch := []
  rhsBatch := []
  wf := dot_S262144x16_S16x85_S262144x85_1_0_0_1_n_n_wf
def dot_S262144x85_S85x16_S262144x16_1_0_0_1_n_n : DotDims S262144x85 S85x16 S262144x16 where
  lhsContracting := [1]
  rhsContracting := [0]
  lhsNonContracting := [0]
  rhsNonContracting := [1]
  lhsBatch := []
  rhsBatch := []
  wf := dot_S262144x85_S85x16_S262144x16_1_0_0_1_n_n_wf

class Facts : Prop extends Facts₀ where

variable [Facts]
-- ==== Proof.K.Pts0.lean ====
/-
  The first pallas_call walks a one-axis grid of 128 points. Its body has two branches on the point's
  coordinate: the accumulator is zeroed at the first point only, and the result block is stored at the last
  point only. Here those two conditions are put in closed form over the grid (the first holds exactly at
  point 0, the second exactly at point 127), together with where the result window is idle (everywhere but
  the last point, and there it is written back), and the kernel's own scratch buffer as a whole memref.
-/
import proofs.«156445_j2207613190522_1_alg».proof.Proof.Gen.Kernel.Skeleton
import proofs.«156445_j2207613190522_1_alg».proof.Proof.Gen.Kernel.Launch
import proofs.«156445_j2207613190522_1_alg».proof.Proof.Gen.Kernel.Points
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- "This is the first point": the body's first `scf.if`, as the body computes it from the coordinate. -/
abbrev isFirst (i : grid0.Coords) : Prop :=
  (Scalar.cmpi .ne (Scalar.extui (Scalar.cmpi .eq (BitVec.ofNat 32 (i 0).val) 0#32)) 0#32) = 1#1
/-- "This is the last point": the body's second `scf.if`. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 127 :=
  (by decide +kernel : ∀ t : Fin grid0.N, isLast (grid0.coords t) ↔ t.val = 127)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The result window is idle at every point but the last, and not written back there; -/
theorem idle0_6 : ∀ t : Fin cfg0.N, ¬isLast (grid0.coords t) → cfg0.idle 6 (grid0.coords t) = true := by decide +kernel
theorem noFlush0_6 : ∀ t : Fin cfg0.N, ¬isLast (grid0.coords t) → (cfg0.win 6).flush t = false := by decide +kernel
/-- at the last point it is live. -/
theorem live0_6 : ∀ t : Fin cfg0.N, isLast (grid0.coords t) → cfg0.idle 6 (grid0.coords t) = false := by decide +kernel

/-! ## The memrefs the body is called with -/

abbrev ms0_0 (t : Fin cfg0.N) : Memref sig .tc .vmem S3x85 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x85 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x85 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S85x16 .f32 := win0_6.stage (cfg0.slots t 6)
abbrev hs0_6 (t : Fin cfg0.N) : (ms0_6 t).IsWhole := hstage0_6 ((cfg0.slots t 6).cast nbuf0_6)
/-- The accumulator: the kernel's own scratch buffer, whole. -/
abbrev accM : Memref sig .tc .vmem S85x16 .f32 := Memref.whole cc0_scratch0

/-- The scoped buffers that are neither a staging buffer of this call nor its accumulator (they are the second
    call's staging buffers), each whole at some contents: they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's class invariant holds: the accumulator at some contents, those other buffers, and the
    generator register at some state. -/
theorem PhiA0_eq (c : Dev nD) :
    (Pipeline.ΦA spec0 c : sProp 𝕄)
      = iprop(iprop((∃ d, owns (c : Thread nD τ) accM fullShare d) ∗ others0 c) ∗ (∃ r, prngReg c r)) := by
  unfold Pipeline.ΦA others0; rw [scopedRest0_eq]; simp only [accM, owns_whole]; try rfl

end Cert.Kernel.Hand

end
-- ==== Proof.K.Data0.lean ====
/-
  What the first pallas_call computes, point by point, as proof data for the pipeline.

  Each of the 128 points sees: the whole transposed table of kernel points (3 × 85), their squared norms
  (1 × 85), the squared widths (1 × 85), the feature weights (1 × 16), a block of 2048 input points (2048 × 3)
  and the matching block of 2048 feature rows (2048 × 16). One step adds to the 85 × 16 accumulator the
  product, contracted over the block's 2048 rows, of the block's Gaussian weights exp(d²/ω²) (2048 × 85) with
  the block's feature rows (`accStep`). The accumulator starts from zero at the first point (`accAt` at 0)
  and is carried from point to point (`accAt` at n + 1). At the last point the accumulator, scaled column by
  column by the feature weights, is the result block (`qfAt`); the result window is idle elsewhere.
  The region's invariant between points is the accumulator at `accAt` of the point before (`PhiS`).
-/
import proofs.«156445_j2207613190522_1_alg».proof.Proof.K.Pts0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One step of the accumulation: the accumulator `s` plus the block's weights (from the table `q`, its norms
    `qn`, the squared widths `od` and the block of points `x`) contracted with the block's features `f`. -/
def accStep (s : Vec F S85x16 .f32) (q : Vec F S3x85 .f32) (qn od : Vec F S1x85 .f32) (x : Vec F S2048x3 .f32)
    (f : Vec F S2048x16 .f32) : Vec F S85x16 .f32 :=
  k0_pay1 (k0_pay4 x q qn od) (k0_pay5 f) (constant S85x16 .f32 0x00000000#32) s

/-- The accumulator after point `n`: from zero at the first point, from the point before afterwards. -/
def accAt (c : Dev nD) : (n : ℕ) → n < cfg0.N → Vec F S85x16 .f32
  | 0, h => accStep (k0_pay3 (F := F)) (iblk0 V c 0 ⟨0, h⟩) (iblk0 V c 1 ⟨0, h⟩) (iblk0 V c 2 ⟨0, h⟩) (iblk0 V c 4 ⟨0, h⟩) (iblk0 V c 5 ⟨0, h⟩)
  | n + 1, h => accStep (accAt c n (Nat.lt_of_succ_lt h)) (iblk0 V c 0 ⟨n + 1, h⟩) (iblk0 V c 1 ⟨n + 1, h⟩) (iblk0 V c 2 ⟨n + 1, h⟩) (iblk0 V c 4 ⟨n + 1, h⟩) (iblk0 V c 5 ⟨n + 1, h⟩)

theorem accAt_zero (c : Dev nD) (h : 0 < cfg0.N) :
    accAt V c 0 h = accStep (k0_pay3 (F := F)) (iblk0 V c 0 ⟨0, h⟩) (iblk0 V c 1 ⟨0, h⟩) (iblk0 V c 2 ⟨0, h⟩) (iblk0 V c 4 ⟨0, h⟩) (iblk0 V c 5 ⟨0, h⟩) := rfl
theorem accAt_succ (c : Dev nD) (n : ℕ) (h : n + 1 < cfg0.N) :
    accAt V c (n + 1) h = accStep (accAt V c n (Nat.lt_of_succ_lt h)) (iblk0 V c 0 ⟨n + 1, h⟩) (iblk0 V c 1 ⟨n + 1, h⟩) (iblk0 V c 2 ⟨n + 1, h⟩) (iblk0 V c 4 ⟨n + 1, h⟩) (iblk0 V c 5 ⟨n + 1, h⟩) := rfl
/-- At a point that is not the first, the accumulator is one step from the point before. -/
theorem accAt_pos (c : Dev nD) (t : Fin cfg0.N) (hz : t.val ≠ 0) :
    accAt V c t.val t.isLt = accStep (accAt V c (t.val - 1) (Nat.lt_of_le_of_lt (Nat.sub_le _ _) t.isLt)) (iblk0 V c 0 t) (iblk0 V c 1 t) (iblk0 V c 2 t) (iblk0 V c 4 t) (iblk0 V c 5 t) := by
  obtain ⟨n, hn⟩ := t
  cases n with
  | zero => exact absurd rfl hz
  | succ n => rfl

/-- What the result block would be at point `t`: the accumulator there, scaled by the feature weights. Only the
    last point stores it. -/
def qfAt (c : Dev nD) (t : Fin cfg0.N) : Vec F S85x16 .f32 :=
  k0_pay2 (accAt V c t.val t.isLt) (iblk0 V c 3 t)

/-- The region's invariant before position `n`: before the first point the class's own (the accumulator at
    anything); afterwards the accumulator at what the point before left, the other scoped buffers at anything,
    the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others0 c) ∗ (∃ r, prngReg c r)) := by
  cases n with
  | zero => exact absurd rfl hz
  | succ n => rfl

/-- The proof data of the first pipeline on core `c`: the arrays as the region finds them; each input's buffer
    left at its block; the result's at `qfAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => qfAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = qfAt V c t := by dsimp only [dat0]

end Cert.Kernel.Hand

end
-- ==== Proof.K.Body0.lean ====
/-
  The first kernel's body on any whole staging memrefs, in its three control cases. The body reads the table of
  kernel points, their norms, the squared widths, the feature weights, a block of points and a block of
  features; it adds one step to its accumulator (after zeroing it, at the first point) and, at the last point,
  stores the scaled accumulator as the result block. Each case is stated with the memrefs' contents named: the
  inputs come back as they were, the accumulator at `accStep` of what it held (or of zero).
-/
import proofs.«156445_j2207613190522_1_alg».proof.Proof.K.Data0
import Idealize.ShloMosaic.Lib.Exec
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt. -/
private theorem hz : (![0, 0] : Fin 2 → Nat) = fun _ => 0 := funext fun a => by fin_cases a <;> rfl

/-- A store through the whole shape at zero offsets, made LAST, is what the buffer then reads, whatever it held and
    whatever was stored before. -/
private theorem read_writes_unit {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-- THE FIRST POINT: the accumulator, found at anything, is zeroed and takes the first block's step; the result
    buffer is not touched. -/
theorem run0_first (c : Dev nD) (E : Set ℕ) (i : grid0.Coords) (arg1 : Memref sig .tc .vmem S3x85 .f32) (harg1 : arg1.IsWhole) (arg2 : Memref sig .tc .vmem S1x85 .f32) (harg2 : arg2.IsWhole) (arg3 : Memref sig .tc .vmem S1x85 .f32) (harg3 : arg3.IsWhole) (arg4 : Memref sig .tc .vmem S1x16 .f32) (harg4 : arg4.IsWhole) (arg5 : Memref sig .tc .vmem S2048x3 .f32) (harg5 : arg5.IsWhole) (arg6 : Memref sig .tc .vmem S2048x16 .f32) (harg6 : arg6.IsWhole) (arg7 : Memref sig .tc .vmem S85x16 .f32) (harg7 : arg7.IsWhole) (arg8 : Memref sig .tc .vmem S85x16 .f32) (harg8 : arg8.IsWhole)
    (hf : isFirst i) (hl : ¬isLast i) (x1 : Vec F S3x85 .f32) (x2 x3 : Vec F S1x85 .f32) (x4 : Vec F S1x16 .f32) (x5 : Vec F S2048x3 .f32) (x6 : Vec F S2048x16 .f32) (y7 : Vec F S85x16 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare y7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ owns (c : Thread nD τ) arg8 fullShare (accStep (k0_pay3 (F := F)) x1 x2 x3 x5 x6)) -∗ K ⟨⟩))
      ⊢ wp frame (wpE (defs₀ (F := F)) Variants.none c none) E (cc0__qf_reduce_kernel i arg1 harg1 arg2 harg2 arg3 harg3 arg4 harg4 arg5 harg5 arg6 harg6 arg7 harg7 arg8 harg8) K := by
  simp only [cc0__qf_reduce_kernel_eq_skeleton]; unfold cc0__qf_reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  -- the body runs to its end: the first branch taken (the zero block stored), the second not
  sl_exec (disch := first | exact hf | exact hl)
  sl_step
  iapply Hk
  -- the inputs and the result buffer come back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the accumulator: its last store covers it whole, over the zero block it read back
  iexists _; isplitr
  swap
  · iexact H8
  ipureintro
  refine (read_writes_unit _ _ hz _ _ _).trans ?_
  sl_unfold_words
  simp only [View.readAt_eq_ld, harg1.read_unread, harg2.read_unread, harg3.read_unread, harg4.read_unread, harg5.read_unread, harg6.read_unread, harg8.read_unread,
      View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz, View.readCov_unit_zero (S := S85x16) _ hz]
  rfl

/-- A MIDDLE POINT: the accumulator, found at `s`, takes this block's step; the result buffer is not touched. -/
theorem run0_mid (c : Dev nD) (E : Set ℕ) (i : grid0.Coords) (arg1 : Memref sig .tc .vmem S3x85 .f32) (harg1 : arg1.IsWhole) (arg2 : Memref sig .tc .vmem S1x85 .f32) (harg2 : arg2.IsWhole) (arg3 : Memref sig .tc .vmem S1x85 .f32) (harg3 : arg3.IsWhole) (arg4 : Memref sig .tc .vmem S1x16 .f32) (harg4 : arg4.IsWhole) (arg5 : Memref sig .tc .vmem S2048x3 .f32) (harg5 : arg5.IsWhole) (arg6 : Memref sig .tc .vmem S2048x16 .f32) (harg6 : arg6.IsWhole) (arg7 : Memref sig .tc .vmem S85x16 .f32) (harg7 : arg7.IsWhole) (arg8 : Memref sig .tc .vmem S85x16 .f32) (harg8 : arg8.IsWhole)
    (hf : ¬isFirst i) (hl : ¬isLast i) (x1 : Vec F S3x85 .f32) (x2 x3 : Vec F S1x85 .f32) (x4 : Vec F S1x16 .f32) (x5 : Vec F S2048x3 .f32) (x6 : Vec F S2048x16 .f32) (y7 : Vec F S85x16 .f32) (s : Vec F S85x16 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ owns (c : Thread nD τ) arg8 fullShare (accStep s x1 x2 x3 x5 x6)) -∗ K ⟨⟩))
      ⊢ wp frame (wpE (defs₀ (F := F)) Variants.none c none) E (cc0__qf_reduce_kernel i arg1 harg1 arg2 harg2 arg3 harg3 arg4 harg4 arg5 harg5 arg6 harg6 arg7 harg7 arg8 harg8) K := by
  simp only [cc0__qf_reduce_kernel_eq_skeleton]; unfold cc0__qf_reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  -- the body runs to its end: neither branch taken
  sl_exec (disch := first | exact hf | exact hl)
  sl_step
  iapply Hk
  -- the inputs and the result buffer come back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the accumulator: its one store covers it whole, over what it held
  iexists _; isplitr
  swap
  · iexact H8
  ipureintro
  refine (read_writes_unit _ _ hz _ _ _).trans ?_
  sl_unfold_words
  simp only [View.readAt_eq_ld, harg1.read_unread, harg2.read_unread, harg3.read_unread, harg4.read_unread, harg5.read_unread, harg6.read_unread, harg8.read_unread,
      View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz]
  rfl

/-- THE LAST POINT: the accumulator takes this block's step, and the result buffer, found at anything, is stored
    whole with the accumulator scaled by the feature weights. -/
theorem run0_last (c : Dev nD) (E : Set ℕ) (i : grid0.Coords) (arg1 : Memref sig .tc .vmem S3x85 .f32) (harg1 : arg1.IsWhole) (arg2 : Memref sig .tc .vmem S1x85 .f32) (harg2 : arg2.IsWhole) (arg3 : Memref sig .tc .vmem S1x85 .f32) (harg3 : arg3.IsWhole) (arg4 : Memref sig .tc .vmem S1x16 .f32) (harg4 : arg4.IsWhole) (arg5 : Memref sig .tc .vmem S2048x3 .f32) (harg5 : arg5.IsWhole) (arg6 : Memref sig .tc .vmem S2048x16 .f32) (harg6 : arg6.IsWhole) (arg7 : Memref sig .tc .vmem S85x16 .f32) (harg7 : arg7.IsWhole) (arg8 : Memref sig .tc .vmem S85x16 .f32) (harg8 : arg8.IsWhole)
    (hf : ¬isFirst i) (hl : isLast i) (x1 : Vec F S3x85 .f32) (x2 x3 : Vec F S1x85 .f32) (x4 : Vec F S1x16 .f32) (x5 : Vec F S2048x3 .f32) (x6 : Vec F S2048x16 .f32) (s : Vec F S85x16 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k0_pay2 (accStep s x1 x2 x3 x5 x6) x4) ∗ owns (c : Thread nD τ) arg8 fullShare (accStep s x1 x2 x3 x5 x6)) -∗ K ⟨⟩))
      ⊢ wp frame (wpE (defs₀ (F := F)) Variants.none c none) E (cc0__qf_reduce_kernel i arg1 harg1 arg2 harg2 arg3 harg3 arg4 harg4 arg5 harg5 arg6 harg6 arg7 harg7 arg8 harg8) K := by
  simp only [cc0__qf_reduce_kernel_eq_skeleton]; unfold cc0__qf_reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  -- the body runs to its end: the first branch not taken, the second taken (the result block stored)
  sl_exec (disch := first | exact hf | exact hl)
  sl_step
  iapply Hk
  -- the inputs come back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the result buffer: its one store covers it whole, the accumulator read back after its update
  isplitl [H7]
  · iexists _; isplitr
    swap
    · iexact H7
    ipureintro
    refine (read_writes_unit _ _ hz _ _ _).trans ?_
    sl_unfold_words
    simp only [View.readAt_eq_ld, harg1.read_unread, harg2.read_unread, harg3.read_unread, harg4.read_unread, harg5.read_unread, harg6.read_unread, harg8.read_unread,
        View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz, View.readCov_unit_zero (S := S85x16) _ hz]
    rfl
  -- the accumulator: its one store covers it whole, over what it held
  iexists _; isplitr
  swap
  · iexact H8
  ipureintro
  refine (read_writes_unit _ _ hz _ _ _).trans ?_
  sl_unfold_words
  simp only [View.readAt_eq_ld, harg1.read_unread, harg2.read_unread, harg3.read_unread, harg4.read_unread, harg5.read_unread, harg6.read_unread, harg8.read_unread,
      View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz]
  rfl

end Cert.Kernel.Hand

end
-- ==== Proof.K.Oblig0.lean ====
/-
  The first pipeline's body obligation. At every point each of the six inputs' current staging buffers holds its
  block of the array as the region found it (the four small operands are fetched once, at the first point, and
  kept; the two streamed ones are fetched at every point). The invariant hands the body the accumulator at what
  the point before left (at anything before the first point) and takes it back one step further. The result
  window is idle except at the last point: elsewhere its buffer is handed back untouched; at the last point it
  holds the scaled accumulator, which the pipeline then writes back.
-/
import proofs.«156445_j2207613190522_1_alg».proof.Proof.K.Body0
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- Each input's current staging buffer holds its block at every point, fetched there or not: the window is live
    at every point, its blocks are never cut and the body leaves the buffer at its block, so where the point
    fetches it the fetch put the block there, and where it does not the block index has not moved since the
    point before. -/
theorem before0_0 (c : Dev nD) (t : Fin cfg0.N) (d) : (dat0 V c).before 0 t d = iblk0 V c 0 t := by
  have hblk : ∀ t, (dat0 V c).blockOf 0 t = iblk0 V c 0 t := fun t => by
    unfold Dat.blockOf iblk0; rw [A_eq0]
  rw [(dat0 V c).before_in_eq_fetched 0 rfl (fun _ => rfl) (fun _ _ _ => rfl)
    (fun t => by rw [after0_0, hblk]) t d]
  unfold Dat.fetched; rw [hblk]; rfl
theorem before0_1 (c : Dev nD) (t : Fin cfg0.N) (d) : (dat0 V c).before 1 t d = iblk0 V c 1 t := by
  have hblk : ∀ t, (dat0 V c).blockOf 1 t = iblk0 V c 1 t := fun t => by
    unfold Dat.blockOf iblk0; rw [A_eq0]
  rw [(dat0 V c).before_in_eq_fetched 1 rfl (fun _ => rfl) (fun _ _ _ => rfl)
    (fun t => by rw [after0_1, hblk]) t d]
  unfold Dat.fetched; rw [hblk]; rfl
theorem before0_2 (c : Dev nD) (t : Fin cfg0.N) (d) : (dat0 V c).before 2 t d = iblk0 V c 2 t := by
  have hblk : ∀ t, (dat0 V c).blockOf 2 t = iblk0 V c 2 t := fun t => by
    unfold Dat.blockOf iblk0; rw [A_eq0]
  rw [(dat0 V c).before_in_eq_fetched 2 rfl (fun _ => rfl) (fun _ _ _ => rfl)
    (fun t => by rw [after0_2, hblk]) t d]
  unfold Dat.fetched; rw [hblk]; rfl
theorem before0_3 (c : Dev nD) (t : Fin cfg0.N) (d) : (dat0 V c).before 3 t d = iblk0 V c 3 t := by
  have hblk : ∀ t, (dat0 V c).blockOf 3 t = iblk0 V c 3 t := fun t => by
    unfold Dat.blockOf iblk0; rw [A_eq0]
  rw [(dat0 V c).before_in_eq_fetched 3 rfl (fun _ => rfl) (fun _ _ _ => rfl)
    (fun t => by rw [after0_3, hblk]) t d]
  unfold Dat.fetched; rw [hblk]; rfl
theorem before0_4 (c : Dev nD) (t : Fin cfg0.N) (d) : (dat0 V c).before 4 t d = iblk0 V c 4 t := by
  have hblk : ∀ t, (dat0 V c).blockOf 4 t = iblk0 V c 4 t := fun t => by
    unfold Dat.blockOf iblk0; rw [A_eq0]
  rw [(dat0 V c).before_in_eq_fetched 4 rfl (fun _ => rfl) (fun _ _ _ => rfl)
    (fun t => by rw [after0_4, hblk]) t d]
  unfold Dat.fetched; rw [hblk]; rfl
theorem before0_5 (c : Dev nD) (t : Fin cfg0.N) (d) : (dat0 V c).before 5 t d = iblk0 V c 5 t := by
  have hblk : ∀ t, (dat0 V c).blockOf 5 t = iblk0 V c 5 t := fun t => by
    unfold Dat.blockOf iblk0; rw [A_eq0]
  rw [(dat0 V c).before_in_eq_fetched 5 rfl (fun _ => rfl) (fun _ _ _ => rfl)
    (fun t => by rw [after0_5, hblk]) t d]
  unfold Dat.fetched; rw [hblk]; rfl

/-! ## The body obligation, at a generic point -/

/-- What the body is called with at point `t`: the invariant, what the core owes (nothing), and the seven
    windows' current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The six inputs' buffers hold their blocks and are handed back as they were. The
    point is the first, a middle one or the last. At the first the invariant is the class's: the accumulator
    at anything, and it comes back at one step from zero. At the others it holds what the point before left
    and comes back one step further. The result buffer is handed back as found except at the last point,
    where it is stored with the accumulator scaled by the feature weights. The other scoped buffers and the
    generator register ride through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare (iblk0 V c 0 t) from by
    unfold Dat.leavesExact; rw [live0_0 t, after0_0]]
  rw [show (dat0 V c).leavesExact 1 t = owns (c : Thread nD τ) (ms0_1 t) fullShare (iblk0 V c 1 t) from by
    unfold Dat.leavesExact; rw [live0_1 t, after0_1]]
  rw [show (dat0 V c).leavesExact 2 t = owns (c : Thread nD τ) (ms0_2 t) fullShare (iblk0 V c 2 t) from by
    unfold Dat.leavesExact; rw [live0_2 t, after0_2]]
  rw [show (dat0 V c).leavesExact 3 t = owns (c : Thread nD τ) (ms0_3 t) fullShare (iblk0 V c 3 t) from by
    unfold Dat.leavesExact; rw [live0_3 t, after0_3]]
  rw [show (dat0 V c).leavesExact 4 t = owns (c : Thread nD τ) (ms0_4 t) fullShare (iblk0 V c 4 t) from by
    unfold Dat.leavesExact; rw [live0_4 t, after0_4]]
  rw [show (dat0 V c).leavesExact 5 t = owns (c : Thread nD τ) (ms0_5 t) fullShare (iblk0 V c 5 t) from by
    unfold Dat.leavesExact; rw [live0_5 t, after0_5]]
  have hN : t.val < 128 := lt_of_lt_of_eq t.isLt (show cfg0.N = 128 from N_0)
  by_cases h0 : t.val = 0
  · -- the first point
    have hl : ¬isLast (grid0.coords t) := fun h => by have := (isLast_iff t).mp h; omega
    rw [Dat.leavesExact_idle (dat0 V c) 6 t (idle0_6 t hl) (noFlush0_6 t hl)]
    rw [PhiS_castSucc V c t, PhiS_zero V c _ _ h0, PhiA0_eq]
    have hacc : accAt V c t.val t.isLt = accStep (k0_pay3 (F := F)) (iblk0 V c 0 t) (iblk0 V c 1 t) (iblk0 V c 2 t) (iblk0 V c 4 t) (iblk0 V c 5 t) := by
      obtain ⟨n, hn⟩ := t
      cases n with
      | zero => rfl
      | succ n => exact absurd h0 (Nat.succ_ne_zero n)
    rw [hacc]
    iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accM (Memref.isWhole_whole _)
      ((isFirst_iff t).mpr h0) hl (iblk0 V c 0 t) (iblk0 V c 1 t) (iblk0 V c 2 t) (iblk0 V c 3 t) (iblk0 V c 4 t) (iblk0 V c 5 t) ((dat0 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    iintro ⟨H0, H1, H2, H3, H4, H5, H6, HA⟩
    isplitl [HA HO Hg]
    · isplitl [HA HO]
      · isplitl [HA]; · iexact HA
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hf : ¬isFirst (grid0.coords t) := fun h => h0 ((isFirst_iff t).mp h)
    rw [PhiS_castSucc V c t, PhiS_pos V c _ _ h0, accAt_pos V c t h0]
    by_cases h1 : t.val = 127
    · -- the last point
      have hl : isLast (grid0.coords t) := (isLast_iff t).mpr h1
      rw [show (dat0 V c).leavesExact 6 t = owns (c : Thread nD τ) (ms0_6 t) fullShare (qfAt V c t) from by
        unfold Dat.leavesExact; rw [live0_6 t hl, after0_6]]
      unfold qfAt
      rw [accAt_pos V c t h0]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩⟩
      iapply (run0_last c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accM (Memref.isWhole_whole _)
        hf hl (iblk0 V c 0 t) (iblk0 V c 1 t) (iblk0 V c 2 t) (iblk0 V c 3 t) (iblk0 V c 4 t) (iblk0 V c 5 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      iintro ⟨H0, H1, H2, H3, H4, H5, H6, HA⟩
      isplitl [HA HO Hg]
      · isplitl [HA HO]
        · isplitl [HA]; · iexact HA
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hl : ¬isLast (grid0.coords t) := fun h => h1 ((isLast_iff t).mp h)
      rw [Dat.leavesExact_idle (dat0 V c) 6 t (idle0_6 t hl) (noFlush0_6 t hl)]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩⟩
      iapply (run0_mid c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accM (Memref.isWhole_whole _)
        hf hl (iblk0 V c 0 t) (iblk0 V c 1 t) (iblk0 V c 2 t) (iblk0 V c 3 t) (iblk0 V c 4 t) (iblk0 V c 5 t) ((dat0 V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      iintro ⟨H0, H1, H2, H3, H4, H5, H6, HA⟩
      isplitl [HA HO Hg]
      · isplitl [HA HO]
        · isplitl [HA]; · iexact HA
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's named contents are forgotten. -/
theorem hout0 (c : Dev nD) : (dat0 V c).Φ (Fin.last cfg0.N) ⊢ Pipeline.ΦA spec0 c := by
  have hN : cfg0.N = 128 := N_0
  rw [show (dat0 V c).Φ (Fin.last cfg0.N) = PhiS V c cfg0.N (Nat.le_refl _) from rfl,
    PhiS_pos V c _ _ (by omega), PhiA0_eq]
  iintro ⟨⟨HA, HO⟩, Hg⟩
  isplitl [HA HO]
  · isplitl [HA]; · iexists _; iexact HA
    iexact HO
  iexact Hg

end Cert.Kernel.Hand

end
-- ==== Proof.K.Data1.lean ====
/-
  What the second pallas_call computes, point by point, as proof data for the pipeline.

  Each of the 64 points sees a block of 4096 feature rows (4096 × 16) and the whole kernel feature matrix
  (85 × 16), and stores one result block (4096 × 117): the features, their product with the matrix transposed,
  and that product times the matrix, side by side. Nothing is carried between points: the region's invariant is
  the class's own.
-/
import proofs.«156445_j2207613190522_1_alg».proof.Proof.Gen.Kernel.Skeleton
import proofs.«156445_j2207613190522_1_alg».proof.Proof.Gen.Kernel.Launch
import proofs.«156445_j2207613190522_1_alg».proof.Proof.Gen.Kernel.Points
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- No window of the second call is ever idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

abbrev ms1_0 (t : Fin cfg1.N) : Memref sig .tc .vmem S4096x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S85x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x117 .f32 := win1_2.stage (cfg1.slots t 2)
abbrev hs1_2 (t : Fin cfg1.N) : (ms1_2 t).IsWhole := hstage1_2 ((cfg1.slots t 2).cast nbuf1_2)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`: the arrays as the region finds them; each input's buffer
    left at its block; the result's at the body's one store; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Cert.Kernel.Hand

end
-- ==== Proof.K.Region1.lean ====
/-
  The second kernel's body on any whole staging memrefs, and the pipeline's body obligation from it. The body
  loads its block of features and the whole kernel feature matrix and stores the result block whole; the inputs
  come back as they were. At every point each input's current buffer holds its block of the array as the region
  found it (whether fetched at that point or kept from the point before), so the body's one triple closes the
  obligation at every point.
-/
import proofs.«156445_j2207613190522_1_alg».proof.Proof.K.Data1
import Idealize.ShloMosaic.Lib.Exec
import Idealize.ShloMosaic.Lib.Pipeline.FrameBody
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- The origin of a rank-two shape, however its zeros are spelt. -/
theorem origin2 : (![0, 0] : Fin 2 → Nat) = fun _ => 0 := funext fun a => by fin_cases a <;> rfl

/-- The body's one store goes through the whole result rectangle, so it covers the buffer. -/
theorem cover1_2 (p : Vec F S4096x117 .f32) (y : S4096x117.Idx) :
    ∃ pc ∈ ([⟨Rect.unit (s := S4096x117) ![0, 0] S4096x117.size inb_S4096x117_S4096x117_0_0, p⟩] : List (View.Piece (Elt F) S4096x117 .f32)), y ∈ pc.1.set :=
  View.cover_of_tiled [⟨Rect.unit (s := S4096x117) ![0, 0] S4096x117.size inb_S4096x117_S4096x117_0_0, p⟩] S4096x117.size (by rfl) y

/-- The body: the result buffer, found at anything, is stored whole with the body's one payload of the two inputs. -/
theorem run1 (c : Dev nD) (E : Set ℕ) (i : grid1.Coords) (arg1 : Memref sig .tc .vmem S4096x16 .f32) (harg1 : arg1.IsWhole)
    (arg2 : Memref sig .tc .vmem S85x16 .f32) (harg2 : arg2.IsWhole) (arg3 : Memref sig .tc .vmem S4096x117 .f32) (harg3 : arg3.IsWhole)
    (x0 : Vec F S4096x16 .f32) (x1 : Vec F S85x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__output_kernel i arg1 harg1 arg2 harg2 arg3 harg3) K := by
  simp only [cc1__output_kernel_eq_skeleton]; unfold cc1__output_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_2 _)]
  rw [View.canon_unit_zero origin2]
  simp only [View.readAt_eq_ld, View.ld_unit_zero (S := S4096x16) origin2, View.ld_unit_zero (S := S85x16) origin2]

/-- Each input's current staging buffer holds its block at every point, fetched there or not. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]; try rfl
  · unfold Dat.fetched Dat.blockOf iblk1; rw [A_eq1]; try rfl
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]; try rfl
  · unfold Dat.fetched Dat.blockOf iblk1; rw [A_eq1]; try rfl

/-- What the body is handed at point `t`: the invariant, what the core owes, and each window's current buffer at
    what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debt, and each buffer at what the proof data says the body leaves. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' buffers hold their blocks, so the body's triple applies with those blocks as
    the values read; the invariant and the core's debt are not touched and pass through. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := by
  intro t
  rw [bigSep_W1, bigSep_W1]
  exact body1_at V c t

end Cert.Kernel.Hand

end
-- ==== Proof.K.Launch.lean ====
/-
  The whole run of @main: eight host operations, the first pallas_call, the second pallas_call.

  The unscoped buffers' contents at the four boundaries are a fold from the launch memory: `W0` the launch
  memory; `W1` after the host operations (the transposed table, the norms, the squared widths, the reshaped
  weights); `W2` after the first region: its arrays at what its write-backs leave (only the kernel feature
  matrix changes), everything else as entered; `W3` after the second region likewise (only the result changes).
  Each pipeline's proof data is taken at its region's entry contents. Each region is a segment entered from
  "every unscoped buffer at the boundary's contents, the generator register at some state, nothing owed" and
  left at the same over the next boundary's contents. Reading the last boundary against the final memory gives
  every unscoped buffer there: the result at what the second region's write-backs leave, and each argument,
  which no host operation writes and no region changes, at its launch contents.
-/
import proofs.«156445_j2207613190522_1_alg».proof.Proof.K.Oblig0
import proofs.«156445_j2207613190522_1_alg».proof.Proof.K.Region1
import proofs.«156445_j2207613190522_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev R1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry: no host operation in between). -/
abbrev R2 : (c : Dev nD) → (b : Ref sig .tc) → Buf (Elt F) ((c : Thread nD τ).loc b) := fun c b => W2 m c b
theorem hF0 (c : Dev nD) (w : Fin cfg0.W) : (dat0 (R1 m) c).arrAt w cfg0.N = R2 m c (Pipeline.arrRef spec0 w) :=
  (W2_arr m c w).symm
theorem hrest0 (c : Dev nD) : ∀ b, b ∉ Finset.univ.image (Pipeline.arrRef spec0) → R2 m c b = R1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (R2 m) c).arrAt w cfg1.N
theorem W3_arr (c : Dev nD) (w : Fin cfg1.W) :
    W3 m c (Proc.devRef .tc (Pipeline.arrRef spec1 w)) = (dat1 (R2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev R3 : (c : Dev nD) → (b : Ref sig .tc) → Buf (Elt F) ((c : Thread nD τ).loc b) := fun c b => W3 m c b
theorem hF1 (c : Dev nD) (w : Fin cfg1.W) : (dat1 (R2 m) c).arrAt w cfg1.N = R3 m c (Pipeline.arrRef spec1 w) :=
  (W3_arr m c w).symm
theorem hrest1 (c : Dev nD) : ∀ b, b ∉ Finset.univ.image (Pipeline.arrRef spec1) → R3 m c b = R2 m c b :=
  fun b hb => W3_of_ne m c b fun w e => hb (Finset.mem_image.mpr ⟨w, Finset.mem_univ _, e⟩)

/-! ## What reaches the end -/

/-- No host operation writes an argument. -/
theorem W1_arg (c : Dev nD) (b : Ref sig .tc) (h : b ∉ hostOps0_W) : W1 m c (Proc.devRef .tc b) = m ((c : Thread nD τ).loc b) :=
  StableHlo.after_of_writes_sub hostOps0 _ hostOps0_writes h

/-- The points' array: an input of the first region only. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 4).trans (((dat0 (R1 m) c).arrAt_in 4 rfl _).trans (A_eq0 (R1 m) c 4))
    _ = m ((c : Thread nD τ).loc main_arg0) := W1_arg m c main_arg0 (by decide)
/-- The features' array: an input of both regions. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (R2 m) c).arrAt_in 0 rfl _).trans (A_eq1 (R2 m) c 0))
    _ = W1 m c (Proc.devRef .tc main_arg1) := (W2_arr m c 5).trans (((dat0 (R1 m) c).arrAt_in 5 rfl _).trans (A_eq0 (R1 m) c 5))
    _ = m ((c : Thread nD τ).loc main_arg1) := W1_arg m c main_arg1 (by decide)
/-- The kernel points, the widths and the weights: no region's array. -/
theorem W3_main_arg2 (c : Dev nD) : W3 m c (Proc.devRef .tc main_arg2) = m ((c : Thread nD τ).loc main_arg2) :=
  (W3_of_ne m c main_arg2 (by decide)).trans ((W2_of_ne m c main_arg2 (by decide)).trans (W1_arg m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_arg m c main_arg4 (by decide)))
/-- The result: the second region's output array. -/
theorem W3_main_v8 (c : Dev nD) : W3 m c (Proc.devRef .tc main_v8) = (dat1 (R2 m) c).arrAt 2 cfg1.N := W3_arr m c 2
/-- The matrix the second region finds: the first region's output array. -/
theorem R2_main_v7 (c : Dev nD) : R2 m c main_v7 = (dat0 (R1 m) c).arrAt 6 cfg0.N := W2_arr m c 6
/-- The features the second region finds: the launch contents. -/
theorem R2_main_arg1 (c : Dev nD) : R2 m c main_arg1 = m ((c : Thread nD τ).loc main_arg1) :=
  ((W2_arr m c 5).trans (((dat0 (R1 m) c).arrAt_in 5 rfl _).trans (A_eq0 (R1 m) c 5))).trans (W1_arg m c main_arg1 (by decide))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W3 m c) ∗ ∃ r, prngReg c r)

/-! ## The regions as segments -/

set_option backward.isDefEq.respectTransparency.types false in
/-- THE FIRST REGION over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (R1 m) c)
    unfold Pipeline.ΦA
    iintro ⟨Hp, -, Hr⟩
    isplitl [Hr]; · iexact Hr
    iexact Hp
  hout c := by
    rw [Pipeline.ownSems0_none]
    refine BIBase.Entails.trans (hout0 (R1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters, every weakly fair execution of @main terminates, nothing
    faulting, and every final memory holds the result array at what the second region's write-backs leave and
    each argument array as launched. -/
theorem run : θ_run defs (onTc (τ := τ) (main (F := F))) ⟨m, fun _ => 0, ρ⟩ (fun r => ∀ c : Dev nD,
      r.2.mem ((c.tc : Thread nD τ).loc main_v8) = (dat1 (R2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v8 (by decide))).trans (W3_main_v8 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

end Cert.Kernel.Hand

end
-- ==== Proof.KI.Pts0.lean ====
/-
  The first pallas_call walks a one-axis grid of 128 points. Its body has two branches on the point's
  coordinate: the accumulator is zeroed at the first point only, and the result block is stored at the last
  point only. Here those two conditions are put in closed form over the grid (the first holds exactly at
  point 0, the second exactly at point 127), together with where the result window is idle (everywhere but
  the last point, and there it is written back), and the kernel's own scratch buffer as a whole memref.
-/
import proofs.«156445_j2207613190522_1_alg».proof.Proof.Gen.KernelIdeal.Skeleton
import proofs.«156445_j2207613190522_1_alg».proof.Proof.Gen.KernelIdeal.Launch
import proofs.«156445_j2207613190522_1_alg».proof.Proof.Gen.KernelIdeal.Points
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- "This is the first point": the body's first `scf.if`, as the body computes it from the coordinate. -/
abbrev isFirst (i : grid0.Coords) : Prop :=
  (Scalar.cmpi .ne (Scalar.extui (Scalar.cmpi .eq (BitVec.ofNat 32 (i 0).val) 0#32)) 0#32) = 1#1
/-- "This is the last point": the body's second `scf.if`. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 127 :=
  (by decide +kernel : ∀ t : Fin grid0.N, isLast (grid0.coords t) ↔ t.val = 127)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The result window is idle at every point but the last, and not written back there; -/
theorem idle0_6 : ∀ t : Fin cfg0.N, ¬isLast (grid0.coords t) → cfg0.idle 6 (grid0.coords t) = true := by decide +kernel
theorem noFlush0_6 : ∀ t : Fin cfg0.N, ¬isLast (grid0.coords t) → (cfg0.win 6).flush t = false := by decide +kernel
/-- at the last point it is live. -/
theorem live0_6 : ∀ t : Fin cfg0.N, isLast (grid0.coords t) → cfg0.idle 6 (grid0.coords t) = false := by decide +kernel

/-! ## The memrefs the body is called with -/

abbrev ms0_0 (t : Fin cfg0.N) : Memref sig .tc .vmem S3x85 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x85 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x85 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S85x16 .f32 := win0_6.stage (cfg0.slots t 6)
abbrev hs0_6 (t : Fin cfg0.N) : (ms0_6 t).IsWhole := hstage0_6 ((cfg0.slots t 6).cast nbuf0_6)
/-- The accumulator: the kernel's own scratch buffer, whole. -/
abbrev accM : Memref sig .tc .vmem S85x16 .f32 := Memref.whole cc0_scratch0

/-- The scoped buffers that are neither a staging buffer of this call nor its accumulator (they are the second
    call's staging buffers), each whole at some contents: they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's class invariant holds: the accumulator at some contents, those other buffers, and the
    generator register at some state. -/
theorem PhiA0_eq (c : Dev nD) :
    (Pipeline.ΦA spec0 c : sProp 𝕄)
      = iprop(iprop((∃ d, owns (c : Thread nD τ) accM fullShare d) ∗ others0 c) ∗ (∃ r, prngReg c r)) := by
  unfold Pipeline.ΦA others0; rw [scopedRest0_eq]; simp only [accM, owns_whole]; try rfl

end Cert.KernelIdeal.Hand

end
-- ==== Proof.KI.Data0.lean ====
/-
  What the first pallas_call computes, point by point, as proof data for the pipeline.

  Each of the 128 points sees: the whole transposed table of kernel points (3 × 85), their squared norms
  (1 × 85), the squared widths (1 × 85), the feature weights (1 × 16), a block of 2048 input points (2048 × 3)
  and the matching block of 2048 feature rows (2048 × 16). One step adds to the 85 × 16 accumulator the
  product, contracted over the block's 2048 rows, of the block's Gaussian weights exp(d²/ω²) (2048 × 85) with
  the block's feature rows (`accStep`). The accumulator starts from zero at the first point (`accAt` at 0)
  and is carried from point to point (`accAt` at n + 1). At the last point the accumulator, scaled column by
  column by the feature weights, is the result block (`qfAt`); the result window is idle elsewhere.
  The region's invariant between points is the accumulator at `accAt` of the point before (`PhiS`).
-/
import proofs.«156445_j2207613190522_1_alg».proof.Proof.KI.Pts0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One step of the accumulation: the accumulator `s` plus the block's weights (from the table `q`, its norms
    `qn`, the squared widths `od` and the block of points `x`) contracted with the block's features `f`. -/
def accStep (s : Vec F S85x16 .f32) (q : Vec F S3x85 .f32) (qn od : Vec F S1x85 .f32) (x : Vec F S2048x3 .f32)
    (f : Vec F S2048x16 .f32) : Vec F S85x16 .f32 :=
  k0_pay1 (k0_pay4 x q qn od) (k0_pay5 f) (constant S85x16 .f32 0x00000000#32) s

/-- The accumulator after point `n`: from zero at the first point, from the point before afterwards. -/
def accAt (c : Dev nD) : (n : ℕ) → n < cfg0.N → Vec F S85x16 .f32
  | 0, h => accStep (k0_pay3 (F := F)) (iblk0 V c 0 ⟨0, h⟩) (iblk0 V c 1 ⟨0, h⟩) (iblk0 V c 2 ⟨0, h⟩) (iblk0 V c 4 ⟨0, h⟩) (iblk0 V c 5 ⟨0, h⟩)
  | n + 1, h => accStep (accAt c n (Nat.lt_of_succ_lt h)) (iblk0 V c 0 ⟨n + 1, h⟩) (iblk0 V c 1 ⟨n + 1, h⟩) (iblk0 V c 2 ⟨n + 1, h⟩) (iblk0 V c 4 ⟨n + 1, h⟩) (iblk0 V c 5 ⟨n + 1, h⟩)

theorem accAt_zero (c : Dev nD) (h : 0 < cfg0.N) :
    accAt V c 0 h = accStep (k0_pay3 (F := F)) (iblk0 V c 0 ⟨0, h⟩) (iblk0 V c 1 ⟨0, h⟩) (iblk0 V c 2 ⟨0, h⟩) (iblk0 V c 4 ⟨0, h⟩) (iblk0 V c 5 ⟨0, h⟩) := rfl
theorem accAt_succ (c : Dev nD) (n : ℕ) (h : n + 1 < cfg0.N) :
    accAt V c (n + 1) h = accStep (accAt V c n (Nat.lt_of_succ_lt h)) (iblk0 V c 0 ⟨n + 1, h⟩) (iblk0 V c 1 ⟨n + 1, h⟩) (iblk0 V c 2 ⟨n + 1, h⟩) (iblk0 V c 4 ⟨n + 1, h⟩) (iblk0 V c 5 ⟨n + 1, h⟩) := rfl
/-- At a point that is not the first, the accumulator is one step from the point before. -/
theorem accAt_pos (c : Dev nD) (t : Fin cfg0.N) (hz : t.val ≠ 0) :
    accAt V c t.val t.isLt = accStep (accAt V c (t.val - 1) (Nat.lt_of_le_of_lt (Nat.sub_le _ _) t.isLt)) (iblk0 V c 0 t) (iblk0 V c 1 t) (iblk0 V c 2 t) (iblk0 V c 4 t) (iblk0 V c 5 t) := by
  obtain ⟨n, hn⟩ := t
  cases n with
  | zero => exact absurd rfl hz
  | succ n => rfl

/-- What the result block would be at point `t`: the accumulator there, scaled by the feature weights. Only the
    last point stores it. -/
def qfAt (c : Dev nD) (t : Fin cfg0.N) : Vec F S85x16 .f32 :=
  k0_pay2 (accAt V c t.val t.isLt) (iblk0 V c 3 t)

/-- The region's invariant before position `n`: before the first point the class's own (the accumulator at
    anything); afterwards the accumulator at what the point before left, the other scoped buffers at anything,
    the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others0 c) ∗ (∃ r, prngReg c r)) := by
  cases n with
  | zero => exact absurd rfl hz
  | succ n => rfl

/-- The proof data of the first pipeline on core `c`: the arrays as the region finds them; each input's buffer
    left at its block; the result's at `qfAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => qfAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = qfAt V c t := by dsimp only [dat0]

end Cert.KernelIdeal.Hand

end
-- ==== Proof.KI.Body0.lean ====
/-
  The first kernel's body on any whole staging memrefs, in its three control cases. The body reads the table of
  kernel points, their norms, the squared widths, the feature weights, a block of points and a block of
  features; it adds one step to its accumulator (after zeroing it, at the first point) and, at the last point,
  stores the scaled accumulator as the result block. Each case is stated with the memrefs' contents named: the
  inputs come back as they were, the accumulator at `accStep` of what it held (or of zero).
-/
import proofs.«156445_j2207613190522_1_alg».proof.Proof.KI.Data0
import Idealize.ShloMosaic.Lib.Exec
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt. -/
private theorem hz : (![0, 0] : Fin 2 → Nat) = fun _ => 0 := funext fun a => by fin_cases a <;> rfl

/-- A store through the whole shape at zero offsets, made LAST, is what the buffer then reads, whatever it held and
    whatever was stored before. -/
private theorem read_writes_unit {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-- THE FIRST POINT: the accumulator, found at anything, is zeroed and takes the first block's step; the result
    buffer is not touched. -/
theorem run0_first (c : Dev nD) (E : Set ℕ) (i : grid0.Coords) (arg1 : Memref sig .tc .vmem S3x85 .f32) (harg1 : arg1.IsWhole) (arg2 : Memref sig .tc .vmem S1x85 .f32) (harg2 : arg2.IsWhole) (arg3 : Memref sig .tc .vmem S1x85 .f32) (harg3 : arg3.IsWhole) (arg4 : Memref sig .tc .vmem S1x16 .f32) (harg4 : arg4.IsWhole) (arg5 : Memref sig .tc .vmem S2048x3 .f32) (harg5 : arg5.IsWhole) (arg6 : Memref sig .tc .vmem S2048x16 .f32) (harg6 : arg6.IsWhole) (arg7 : Memref sig .tc .vmem S85x16 .f32) (harg7 : arg7.IsWhole) (arg8 : Memref sig .tc .vmem S85x16 .f32) (harg8 : arg8.IsWhole)
    (hf : isFirst i) (hl : ¬isLast i) (x1 : Vec F S3x85 .f32) (x2 x3 : Vec F S1x85 .f32) (x4 : Vec F S1x16 .f32) (x5 : Vec F S2048x3 .f32) (x6 : Vec F S2048x16 .f32) (y7 : Vec F S85x16 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare y7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ owns (c : Thread nD τ) arg8 fullShare (accStep (k0_pay3 (F := F)) x1 x2 x3 x5 x6)) -∗ K ⟨⟩))
      ⊢ wp frame (wpE (defs₀ (F := F)) Variants.none c none) E (cc0__qf_reduce_kernel i arg1 harg1 arg2 harg2 arg3 harg3 arg4 harg4 arg5 harg5 arg6 harg6 arg7 harg7 arg8 harg8) K := by
  simp only [cc0__qf_reduce_kernel_eq_skeleton]; unfold cc0__qf_reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  -- the body runs to its end: the first branch taken (the zero block stored), the second not
  sl_exec (disch := first | exact hf | exact hl)
  sl_step
  iapply Hk
  -- the inputs and the result buffer come back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the accumulator: its last store covers it whole, over the zero block it read back
  iexists _; isplitr
  swap
  · iexact H8
  ipureintro
  refine (read_writes_unit _ _ hz _ _ _).trans ?_
  sl_unfold_words
  simp only [View.readAt_eq_ld, harg1.read_unread, harg2.read_unread, harg3.read_unread, harg4.read_unread, harg5.read_unread, harg6.read_unread, harg8.read_unread,
      View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz, View.readCov_unit_zero (S := S85x16) _ hz]
  rfl

/-- A MIDDLE POINT: the accumulator, found at `s`, takes this block's step; the result buffer is not touched. -/
theorem run0_mid (c : Dev nD) (E : Set ℕ) (i : grid0.Coords) (arg1 : Memref sig .tc .vmem S3x85 .f32) (harg1 : arg1.IsWhole) (arg2 : Memref sig .tc .vmem S1x85 .f32) (harg2 : arg2.IsWhole) (arg3 : Memref sig .tc .vmem S1x85 .f32) (harg3 : arg3.IsWhole) (arg4 : Memref sig .tc .vmem S1x16 .f32) (harg4 : arg4.IsWhole) (arg5 : Memref sig .tc .vmem S2048x3 .f32) (harg5 : arg5.IsWhole) (arg6 : Memref sig .tc .vmem S2048x16 .f32) (harg6 : arg6.IsWhole) (arg7 : Memref sig .tc .vmem S85x16 .f32) (harg7 : arg7.IsWhole) (arg8 : Memref sig .tc .vmem S85x16 .f32) (harg8 : arg8.IsWhole)
    (hf : ¬isFirst i) (hl : ¬isLast i) (x1 : Vec F S3x85 .f32) (x2 x3 : Vec F S1x85 .f32) (x4 : Vec F S1x16 .f32) (x5 : Vec F S2048x3 .f32) (x6 : Vec F S2048x16 .f32) (y7 : Vec F S85x16 .f32) (s : Vec F S85x16 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ owns (c : Thread nD τ) arg8 fullShare (accStep s x1 x2 x3 x5 x6)) -∗ K ⟨⟩))
      ⊢ wp frame (wpE (defs₀ (F := F)) Variants.none c none) E (cc0__qf_reduce_kernel i arg1 harg1 arg2 harg2 arg3 harg3 arg4 harg4 arg5 harg5 arg6 harg6 arg7 harg7 arg8 harg8) K := by
  simp only [cc0__qf_reduce_kernel_eq_skeleton]; unfold cc0__qf_reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  -- the body runs to its end: neither branch taken
  sl_exec (disch := first | exact hf | exact hl)
  sl_step
  iapply Hk
  -- the inputs and the result buffer come back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the accumulator: its one store covers it whole, over what it held
  iexists _; isplitr
  swap
  · iexact H8
  ipureintro
  refine (read_writes_unit _ _ hz _ _ _).trans ?_
  sl_unfold_words
  simp only [View.readAt_eq_ld, harg1.read_unread, harg2.read_unread, harg3.read_unread, harg4.read_unread, harg5.read_unread, harg6.read_unread, harg8.read_unread,
      View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz]
  rfl

/-- THE LAST POINT: the accumulator takes this block's step, and the result buffer, found at anything, is stored
    whole with the accumulator scaled by the feature weights. -/
theorem run0_last (c : Dev nD) (E : Set ℕ) (i : grid0.Coords) (arg1 : Memref sig .tc .vmem S3x85 .f32) (harg1 : arg1.IsWhole) (arg2 : Memref sig .tc .vmem S1x85 .f32) (harg2 : arg2.IsWhole) (arg3 : Memref sig .tc .vmem S1x85 .f32) (harg3 : arg3.IsWhole) (arg4 : Memref sig .tc .vmem S1x16 .f32) (harg4 : arg4.IsWhole) (arg5 : Memref sig .tc .vmem S2048x3 .f32) (harg5 : arg5.IsWhole) (arg6 : Memref sig .tc .vmem S2048x16 .f32) (harg6 : arg6.IsWhole) (arg7 : Memref sig .tc .vmem S85x16 .f32) (harg7 : arg7.IsWhole) (arg8 : Memref sig .tc .vmem S85x16 .f32) (harg8 : arg8.IsWhole)
    (hf : ¬isFirst i) (hl : isLast i) (x1 : Vec F S3x85 .f32) (x2 x3 : Vec F S1x85 .f32) (x4 : Vec F S1x16 .f32) (x5 : Vec F S2048x3 .f32) (x6 : Vec F S2048x16 .f32) (s : Vec F S85x16 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k0_pay2 (accStep s x1 x2 x3 x5 x6) x4) ∗ owns (c : Thread nD τ) arg8 fullShare (accStep s x1 x2 x3 x5 x6)) -∗ K ⟨⟩))
      ⊢ wp frame (wpE (defs₀ (F := F)) Variants.none c none) E (cc0__qf_reduce_kernel i arg1 harg1 arg2 harg2 arg3 harg3 arg4 harg4 arg5 harg5 arg6 harg6 arg7 harg7 arg8 harg8) K := by
  simp only [cc0__qf_reduce_kernel_eq_skeleton]; unfold cc0__qf_reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  -- the body runs to its end: the first branch not taken, the second taken (the result block stored)
  sl_exec (disch := first | exact hf | exact hl)
  sl_step
  iapply Hk
  -- the inputs come back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the result buffer: its one store covers it whole, the accumulator read back after its update
  isplitl [H7]
  · iexists _; isplitr
    swap
    · iexact H7
    ipureintro
    refine (read_writes_unit _ _ hz _ _ _).trans ?_
    sl_unfold_words
    simp only [View.readAt_eq_ld, harg1.read_unread, harg2.read_unread, harg3.read_unread, harg4.read_unread, harg5.read_unread, harg6.read_unread, harg8.read_unread,
        View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz, View.readCov_unit_zero (S := S85x16) _ hz]
    rfl
  -- the accumulator: its one store covers it whole, over what it held
  iexists _; isplitr
  swap
  · iexact H8
  ipureintro
  refine (read_writes_unit _ _ hz _ _ _).trans ?_
  sl_unfold_words
  simp only [View.readAt_eq_ld, harg1.read_unread, harg2.read_unread, harg3.read_unread, harg4.read_unread, harg5.read_unread, harg6.read_unread, harg8.read_unread,
      View.ld_unit_zero (S := S3x85) hz, View.ld_unit_zero (S := S1x85) hz, View.ld_unit_zero (S := S1x16) hz, View.ld_unit_zero (S := S2048x3) hz, View.ld_unit_zero (S := S2048x16) hz, View.ld_unit_zero (S := S85x16) hz]
  rfl

end Cert.KernelIdeal.Hand

end
-- ==== Proof.KI.Oblig0.lean ====
/-
  The first pipeline's body obligation. At every point each of the six inputs' current staging buffers holds its
  block of the array as the region found it (the four small operands are fetched once, at the first point, and
  kept; the two streamed ones are fetched at every point). The invariant hands the body the accumulator at what
  the point before left (at anything before the first point) and takes it back one step further. The result
  window is idle except at the last point: elsewhere its buffer is handed back untouched; at the last point it
  holds the scaled accumulator, which the pipeline then writes back.
-/
import proofs.«156445_j2207613190522_1_alg».proof.Proof.KI.Body0
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- Each input's current staging buffer holds its block at every point, fetched there or not: the window is live
    at every point, its blocks are never cut and the body leaves the buffer at its block, so where the point
    fetches it the fetch put the block there, and where it does not the block index has not moved since the
    point before. -/
theorem before0_0 (c : Dev nD) (t : Fin cfg0.N) (d) : (dat0 V c).before 0 t d = iblk0 V c 0 t := by
  have hblk : ∀ t, (dat0 V c).blockOf 0 t = iblk0 V c 0 t := fun t => by
    unfold Dat.blockOf iblk0; rw [A_eq0]
  rw [(dat0 V c).before_in_eq_fetched 0 rfl (fun _ => rfl) (fun _ _ _ => rfl)
    (fun t => by rw [after0_0, hblk]) t d]
  unfold Dat.fetched; rw [hblk]; rfl
theorem before0_1 (c : Dev nD) (t : Fin cfg0.N) (d) : (dat0 V c).before 1 t d = iblk0 V c 1 t := by
  have hblk : ∀ t, (dat0 V c).blockOf 1 t = iblk0 V c 1 t := fun t => by
    unfold Dat.blockOf iblk0; rw [A_eq0]
  rw [(dat0 V c).before_in_eq_fetched 1 rfl (fun _ => rfl) (fun _ _ _ => rfl)
    (fun t => by rw [after0_1, hblk]) t d]
  unfold Dat.fetched; rw [hblk]; rfl
theorem before0_2 (c : Dev nD) (t : Fin cfg0.N) (d) : (dat0 V c).before 2 t d = iblk0 V c 2 t := by
  have hblk : ∀ t, (dat0 V c).blockOf 2 t = iblk0 V c 2 t := fun t => by
    unfold Dat.blockOf iblk0; rw [A_eq0]
  rw [(dat0 V c).before_in_eq_fetched 2 rfl (fun _ => rfl) (fun _ _ _ => rfl)
    (fun t => by rw [after0_2, hblk]) t d]
  unfold Dat.fetched; rw [hblk]; rfl
theorem before0_3 (c : Dev nD) (t : Fin cfg0.N) (d) : (dat0 V c).before 3 t d = iblk0 V c 3 t := by
  have hblk : ∀ t, (dat0 V c).blockOf 3 t = iblk0 V c 3 t := fun t => by
    unfold Dat.blockOf iblk0; rw [A_eq0]
  rw [(dat0 V c).before_in_eq_fetched 3 rfl (fun _ => rfl) (fun _ _ _ => rfl)
    (fun t => by rw [after0_3, hblk]) t d]
  unfold Dat.fetched; rw [hblk]; rfl
theorem before0_4 (c : Dev nD) (t : Fin cfg0.N) (d) : (dat0 V c).before 4 t d = iblk0 V c 4 t := by
  have hblk : ∀ t, (dat0 V c).blockOf 4 t = iblk0 V c 4 t := fun t => by
    unfold Dat.blockOf iblk0; rw [A_eq0]
  rw [(dat0 V c).before_in_eq_fetched 4 rfl (fun _ => rfl) (fun _ _ _ => rfl)
    (fun t => by rw [after0_4, hblk]) t d]
  unfold Dat.fetched; rw [hblk]; rfl
theorem before0_5 (c : Dev nD) (t : Fin cfg0.N) (d) : (dat0 V c).before 5 t d = iblk0 V c 5 t := by
  have hblk : ∀ t, (dat0 V c).blockOf 5 t = iblk0 V c 5 t := fun t => by
    unfold Dat.blockOf iblk0; rw [A_eq0]
  rw [(dat0 V c).before_in_eq_fetched 5 rfl (fun _ => rfl) (fun _ _ _ => rfl)
    (fun t => by rw [after0_5, hblk]) t d]
  unfold Dat.fetched; rw [hblk]; rfl

/-! ## The body obligation, at a generic point -/

/-- What the body is called with at point `t`: the invariant, what the core owes (nothing), and the seven
    windows' current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The six inputs' buffers hold their blocks and are handed back as they were. The
    point is the first, a middle one or the last. At the first the invariant is the class's: the accumulator
    at anything, and it comes back at one step from zero. At the others it holds what the point before left
    and comes back one step further. The result buffer is handed back as found except at the last point,
    where it is stored with the accumulator scaled by the feature weights. The other scoped buffers and the
    generator register ride through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare (iblk0 V c 0 t) from by
    unfold Dat.leavesExact; rw [live0_0 t, after0_0]]
  rw [show (dat0 V c).leavesExact 1 t = owns (c : Thread nD τ) (ms0_1 t) fullShare (iblk0 V c 1 t) from by
    unfold Dat.leavesExact; rw [live0_1 t, after0_1]]
  rw [show (dat0 V c).leavesExact 2 t = owns (c : Thread nD τ) (ms0_2 t) fullShare (iblk0 V c 2 t) from by
    unfold Dat.leavesExact; rw [live0_2 t, after0_2]]
  rw [show (dat0 V c).leavesExact 3 t = owns (c : Thread nD τ) (ms0_3 t) fullShare (iblk0 V c 3 t) from by
    unfold Dat.leavesExact; rw [live0_3 t, after0_3]]
  rw [show (dat0 V c).leavesExact 4 t = owns (c : Thread nD τ) (ms0_4 t) fullShare (iblk0 V c 4 t) from by
    unfold Dat.leavesExact; rw [live0_4 t, after0_4]]
  rw [show (dat0 V c).leavesExact 5 t = owns (c : Thread nD τ) (ms0_5 t) fullShare (iblk0 V c 5 t) from by
    unfold Dat.leavesExact; rw [live0_5 t, after0_5]]
  have hN : t.val < 128 := lt_of_lt_of_eq t.isLt (show cfg0.N = 128 from N_0)
  by_cases h0 : t.val = 0
  · -- the first point
    have hl : ¬isLast (grid0.coords t) := fun h => by have := (isLast_iff t).mp h; omega
    rw [Dat.leavesExact_idle (dat0 V c) 6 t (idle0_6 t hl) (noFlush0_6 t hl)]
    rw [PhiS_castSucc V c t, PhiS_zero V c _ _ h0, PhiA0_eq]
    have hacc : accAt V c t.val t.isLt = accStep (k0_pay3 (F := F)) (iblk0 V c 0 t) (iblk0 V c 1 t) (iblk0 V c 2 t) (iblk0 V c 4 t) (iblk0 V c 5 t) := by
      obtain ⟨n, hn⟩ := t
      cases n with
      | zero => rfl
      | succ n => exact absurd h0 (Nat.succ_ne_zero n)
    rw [hacc]
    iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accM (Memref.isWhole_whole _)
      ((isFirst_iff t).mpr h0) hl (iblk0 V c 0 t) (iblk0 V c 1 t) (iblk0 V c 2 t) (iblk0 V c 3 t) (iblk0 V c 4 t) (iblk0 V c 5 t) ((dat0 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    iintro ⟨H0, H1, H2, H3, H4, H5, H6, HA⟩
    isplitl [HA HO Hg]
    · isplitl [HA HO]
      · isplitl [HA]; · iexact HA
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hf : ¬isFirst (grid0.coords t) := fun h => h0 ((isFirst_iff t).mp h)
    rw [PhiS_castSucc V c t, PhiS_pos V c _ _ h0, accAt_pos V c t h0]
    by_cases h1 : t.val = 127
    · -- the last point
      have hl : isLast (grid0.coords t) := (isLast_iff t).mpr h1
      rw [show (dat0 V c).leavesExact 6 t = owns (c : Thread nD τ) (ms0_6 t) fullShare (qfAt V c t) from by
        unfold Dat.leavesExact; rw [live0_6 t hl, after0_6]]
      unfold qfAt
      rw [accAt_pos V c t h0]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩⟩
      iapply (run0_last c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accM (Memref.isWhole_whole _)
        hf hl (iblk0 V c 0 t) (iblk0 V c 1 t) (iblk0 V c 2 t) (iblk0 V c 3 t) (iblk0 V c 4 t) (iblk0 V c 5 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      iintro ⟨H0, H1, H2, H3, H4, H5, H6, HA⟩
      isplitl [HA HO Hg]
      · isplitl [HA HO]
        · isplitl [HA]; · iexact HA
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hl : ¬isLast (grid0.coords t) := fun h => h1 ((isLast_iff t).mp h)
      rw [Dat.leavesExact_idle (dat0 V c) 6 t (idle0_6 t hl) (noFlush0_6 t hl)]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩⟩
      iapply (run0_mid c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accM (Memref.isWhole_whole _)
        hf hl (iblk0 V c 0 t) (iblk0 V c 1 t) (iblk0 V c 2 t) (iblk0 V c 3 t) (iblk0 V c 4 t) (iblk0 V c 5 t) ((dat0 V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      iintro ⟨H0, H1, H2, H3, H4, H5, H6, HA⟩
      isplitl [HA HO Hg]
      · isplitl [HA HO]
        · isplitl [HA]; · iexact HA
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's named contents are forgotten. -/
theorem hout0 (c : Dev nD) : (dat0 V c).Φ (Fin.last cfg0.N) ⊢ Pipeline.ΦA spec0 c := by
  have hN : cfg0.N = 128 := N_0
  rw [show (dat0 V c).Φ (Fin.last cfg0.N) = PhiS V c cfg0.N (Nat.le_refl _) from rfl,
    PhiS_pos V c _ _ (by omega), PhiA0_eq]
  iintro ⟨⟨HA, HO⟩, Hg⟩
  isplitl [HA HO]
  · isplitl [HA]; · iexists _; iexact HA
    iexact HO
  iexact Hg

end Cert.KernelIdeal.Hand

end
-- ==== Proof.KI.Data1.lean ====
/-
  What the second pallas_call computes, point by point, as proof data for the pipeline.

  Each of the 64 points sees a block of 4096 feature rows (4096 × 16) and the whole kernel feature matrix
  (85 × 16), and stores one result block (4096 × 117): the features, their product with the matrix transposed,
  and that product times the matrix, side by side. Nothing is carried between points: the region's invariant is
  the class's own.
-/
import proofs.«156445_j2207613190522_1_alg».proof.Proof.Gen.KernelIdeal.Skeleton
import proofs.«156445_j2207613190522_1_alg».proof.Proof.Gen.KernelIdeal.Launch
import proofs.«156445_j2207613190522_1_alg».proof.Proof.Gen.KernelIdeal.Points
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- No window of the second call is ever idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

abbrev ms1_0 (t : Fin cfg1.N) : Memref sig .tc .vmem S4096x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S85x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x117 .f32 := win1_2.stage (cfg1.slots t 2)
abbrev hs1_2 (t : Fin cfg1.N) : (ms1_2 t).IsWhole := hstage1_2 ((cfg1.slots t 2).cast nbuf1_2)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`: the arrays as the region finds them; each input's buffer
    left at its block; the result's at the body's one store; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Cert.KernelIdeal.Hand

end
-- ==== Proof.KI.Region1.lean ====
/-
  The second kernel's body on any whole staging memrefs, and the pipeline's body obligation from it. The body
  loads its block of features and the whole kernel feature matrix and stores the result block whole; the inputs
  come back as they were. At every point each input's current buffer holds its block of the array as the region
  found it (whether fetched at that point or kept from the point before), so the body's one triple closes the
  obligation at every point.
-/
import proofs.«156445_j2207613190522_1_alg».proof.Proof.KI.Data1
import Idealize.ShloMosaic.Lib.Exec
import Idealize.ShloMosaic.Lib.Pipeline.FrameBody
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every unscoped buffer's contents when the region is entered, per core
variable (V : (c : Dev nD) → (b : Ref sig .tc) → Buf (Elt F) ((c : Thread nD τ).loc b))

/-- The origin of a rank-two shape, however its zeros are spelt. -/
theorem origin2 : (![0, 0] : Fin 2 → Nat) = fun _ => 0 := funext fun a => by fin_cases a <;> rfl

/-- The body's one store goes through the whole result rectangle, so it covers the buffer. -/
theorem cover1_2 (p : Vec F S4096x117 .f32) (y : S4096x117.Idx) :
    ∃ pc ∈ ([⟨Rect.unit (s := S4096x117) ![0, 0] S4096x117.size inb_S4096x117_S4096x117_0_0, p⟩] : List (View.Piece (Elt F) S4096x117 .f32)), y ∈ pc.1.set :=
  View.cover_of_tiled [⟨Rect.unit (s := S4096x117) ![0, 0] S4096x117.size inb_S4096x117_S4096x117_0_0, p⟩] S4096x117.size (by rfl) y

/-- The body: the result buffer, found at anything, is stored whole with the body's one payload of the two inputs. -/
theorem run1 (c : Dev nD) (E : Set ℕ) (i : grid1.Coords) (arg1 : Memref sig .tc .vmem S4096x16 .f32) (harg1 : arg1.IsWhole)
    (arg2 : Memref sig .tc .vmem S85x16 .f32) (harg2 : arg2.IsWhole) (arg3 : Memref sig .tc .vmem S4096x117 .f32) (harg3 : arg3.IsWhole)
    (x0 : Vec F S4096x16 .f32) (x1 : Vec F S85x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__output_kernel i arg1 harg1 arg2 harg2 arg3 harg3) K := by
  simp only [cc1__output_kernel_eq_skeleton]; unfold cc1__output_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_2 _)]
  rw [View.canon_unit_zero origin2]
  simp only [View.readAt_eq_ld, View.ld_unit_zero (S := S4096x16) origin2, View.ld_unit_zero (S := S85x16) origin2]

/-- Each input's current staging buffer holds its block at every point, fetched there or not. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]; try rfl
  · unfold Dat.fetched Dat.blockOf iblk1; rw [A_eq1]; try rfl
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]; try rfl
  · unfold Dat.fetched Dat.blockOf iblk1; rw [A_eq1]; try rfl

/-- What the body is handed at point `t`: the invariant, what the core owes, and each window's current buffer at
    what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debt, and each buffer at what the proof data says the body leaves. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' buffers hold their blocks, so the body's triple applies with those blocks as
    the values read; the invariant and the core's debt are not touched and pass through. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := by
  intro t
  rw [bigSep_W1, bigSep_W1]
  exact body1_at V c t

end Cert.KernelIdeal.Hand

end
-- ==== Proof.KI.Launch.lean ====
/-
  The whole run of @main: eight host operations, the first pallas_call, the second pallas_call.

  The unscoped buffers' contents at the four boundaries are a fold from the launch memory: `W0` the launch
  memory; `W1` after the host operations (the transposed table, the norms, the squared widths, the reshaped
  weights); `W2` after the first region: its arrays at what its write-backs leave (only the kernel feature
  matrix changes), everything else as entered; `W3` after the second region likewise (only the result changes).
  Each pipeline's proof data is taken at its region's entry contents. Each region is a segment entered from
  "every unscoped buffer at the boundary's contents, the generator register at some state, nothing owed" and
  left at the same over the next boundary's contents. Reading the last boundary against the final memory gives
  every unscoped buffer there: the result at what the second region's write-backs leave, and each argument,
  which no host operation writes and no region changes, at its launch contents.
-/
import proofs.«156445_j2207613190522_1_alg».proof.Proof.KI.Oblig0
import proofs.«156445_j2207613190522_1_alg».proof.Proof.KI.Region1
import proofs.«156445_j2207613190522_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev R1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry: no host operation in between). -/
abbrev R2 : (c : Dev nD) → (b : Ref sig .tc) → Buf (Elt F) ((c : Thread nD τ).loc b) := fun c b => W2 m c b
theorem hF0 (c : Dev nD) (w : Fin cfg0.W) : (dat0 (R1 m) c).arrAt w cfg0.N = R2 m c (Pipeline.arrRef spec0 w) :=
  (W2_arr m c w).symm
theorem hrest0 (c : Dev nD) : ∀ b, b ∉ Finset.univ.image (Pipeline.arrRef spec0) → R2 m c b = R1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (R2 m) c).arrAt w cfg1.N
theorem W3_arr (c : Dev nD) (w : Fin cfg1.W) :
    W3 m c (Proc.devRef .tc (Pipeline.arrRef spec1 w)) = (dat1 (R2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev R3 : (c : Dev nD) → (b : Ref sig .tc) → Buf (Elt F) ((c : Thread nD τ).loc b) := fun c b => W3 m c b
theorem hF1 (c : Dev nD) (w : Fin cfg1.W) : (dat1 (R2 m) c).arrAt w cfg1.N = R3 m c (Pipeline.arrRef spec1 w) :=
  (W3_arr m c w).symm
theorem hrest1 (c : Dev nD) : ∀ b, b ∉ Finset.univ.image (Pipeline.arrRef spec1) → R3 m c b = R2 m c b :=
  fun b hb => W3_of_ne m c b fun w e => hb (Finset.mem_image.mpr ⟨w, Finset.mem_univ _, e⟩)

/-! ## What reaches the end -/

/-- No host operation writes an argument. -/
theorem W1_arg (c : Dev nD) (b : Ref sig .tc) (h : b ∉ hostOps0_W) : W1 m c (Proc.devRef .tc b) = m ((c : Thread nD τ).loc b) :=
  StableHlo.after_of_writes_sub hostOps0 _ hostOps0_writes h

/-- The points' array: an input of the first region only. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 4).trans (((dat0 (R1 m) c).arrAt_in 4 rfl _).trans (A_eq0 (R1 m) c 4))
    _ = m ((c : Thread nD τ).loc main_arg0) := W1_arg m c main_arg0 (by decide)
/-- The features' array: an input of both regions. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (R2 m) c).arrAt_in 0 rfl _).trans (A_eq1 (R2 m) c 0))
    _ = W1 m c (Proc.devRef .tc main_arg1) := (W2_arr m c 5).trans (((dat0 (R1 m) c).arrAt_in 5 rfl _).trans (A_eq0 (R1 m) c 5))
    _ = m ((c : Thread nD τ).loc main_arg1) := W1_arg m c main_arg1 (by decide)
/-- The kernel points, the widths and the weights: no region's array. -/
theorem W3_main_arg2 (c : Dev nD) : W3 m c (Proc.devRef .tc main_arg2) = m ((c : Thread nD τ).loc main_arg2) :=
  (W3_of_ne m c main_arg2 (by decide)).trans ((W2_of_ne m c main_arg2 (by decide)).trans (W1_arg m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_arg m c main_arg4 (by decide)))
/-- The result: the second region's output array. -/
theorem W3_main_v8 (c : Dev nD) : W3 m c (Proc.devRef .tc main_v8) = (dat1 (R2 m) c).arrAt 2 cfg1.N := W3_arr m c 2
/-- The matrix the second region finds: the first region's output array. -/
theorem R2_main_v7 (c : Dev nD) : R2 m c main_v7 = (dat0 (R1 m) c).arrAt 6 cfg0.N := W2_arr m c 6
/-- The features the second region finds: the launch contents. -/
theorem R2_main_arg1 (c : Dev nD) : R2 m c main_arg1 = m ((c : Thread nD τ).loc main_arg1) :=
  ((W2_arr m c 5).trans (((dat0 (R1 m) c).arrAt_in 5 rfl _).trans (A_eq0 (R1 m) c 5))).trans (W1_arg m c main_arg1 (by decide))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W3 m c) ∗ ∃ r, prngReg c r)

/-! ## The regions as segments -/

set_option backward.isDefEq.respectTransparency.types false in
/-- THE FIRST REGION over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (R1 m) c)
    unfold Pipeline.ΦA
    iintro ⟨Hp, -, Hr⟩
    isplitl [Hr]; · iexact Hr
    iexact Hp
  hout c := by
    rw [Pipeline.ownSems0_none]
    refine BIBase.Entails.trans (hout0 (R1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters, every weakly fair execution of @main terminates, nothing
    faulting, and every final memory holds the result array at what the second region's write-backs leave and
    each argument array as launched. -/
theorem run : θ_run defs (onTc (τ := τ) (main (F := F))) ⟨m, fun _ => 0, ρ⟩ (fun r => ∀ c : Dev nD,
      r.2.mem ((c.tc : Thread nD τ).loc main_v8) = (dat1 (R2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v8 (by decide))).trans (W3_main_v8 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

end Cert.KernelIdeal.Hand

end
-- ==== Proof.Spec.lean ====
/-
  THE SPECIFICATION, as plain functions of the five argument arrays over the extended reals.

  Inputs: points X (262144 × 3), features F (262144 × 16), kernel points Q (85 × 3), widths D (85), feature
  weights W (16).

  The reference's arrangement: the squared distance of point i to kernel point k is the sum over the three
  coordinates of (X i c − Q k c)²  (`dist2`); its weight is exp(dist2 / (D k · D k))  (`wgt`); the kernel
  feature matrix is QF k f = W f · Σᵢ wgt i k · F i f  (`QF`). The result row i is the concatenation of
  F i, of (F · QFᵀ) i  and of (F · QFᵀ · QF) i  (`OUT`: a function of F and of any 85 × 16 matrix G).

  The kernel's arrangement: it is handed the TRANSPOSED table qt (3 × 85), the kernel points' squared norms qn
  (1 × 85), the squared widths od (1 × 85) and the weights w (1 × 16), and expands the square:
  |x|² + |q|² − 2 · x·q  (`dist2K`), then the same quotient and exponential (`wgtK`), and scales the sum on the
  right (`qfK`). `qtOf`, `qnOf`, `odOf`, `wOf` are what the host lines before the first call make of Q, D and W.

  Over the reals the two squared distances are one polynomial identity; on the extended reals it needs the
  entries of X and Q to be finite (the rest of each side is the same operations on equal arguments, and sums
  may be regrouped freely).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev ArrX : Type := (⟨2, ![262144, 3]⟩ : Shape).Idx → EReal
abbrev ArrF : Type := (⟨2, ![262144, 16]⟩ : Shape).Idx → EReal
abbrev ArrQ : Type := (⟨2, ![85, 3]⟩ : Shape).Idx → EReal
abbrev ArrD : Type := (⟨1, ![85]⟩ : Shape).Idx → EReal
abbrev ArrW : Type := (⟨1, ![16]⟩ : Shape).Idx → EReal
abbrev ArrQt : Type := (⟨2, ![3, 85]⟩ : Shape).Idx → EReal
abbrev ArrRow85 : Type := (⟨2, ![1, 85]⟩ : Shape).Idx → EReal
abbrev ArrRow16 : Type := (⟨2, ![1, 16]⟩ : Shape).Idx → EReal
abbrev ArrQF : Type := (⟨2, ![85, 16]⟩ : Shape).Idx → EReal
abbrev ArrOut : Type := (⟨2, ![262144, 117]⟩ : Shape).Idx → EReal

/-- The float words the programs print: zero and two. -/
abbrev zeroW : EReal := Ideal.ofBits .f32 0x00000000#32
abbrev twoW : EReal := Ideal.ofBits .f32 0x40000000#32

/-! ## The reference's arrangement -/

/-- Squared distance of point `i` to kernel point `k`: the sum of the squared coordinate differences. -/
def dist2 (X : ArrX) (Q : ArrQ) (i : Fin 262144) (k : Fin 85) : EReal :=
  zeroW + ∑ c : Fin 3, (X (ix2 i c) - Q (ix2 k c)) * (X (ix2 i c) - Q (ix2 k c))

/-- The weight of point `i` at kernel point `k`. -/
def wgt (X : ArrX) (Q : ArrQ) (D : ArrD) (i : Fin 262144) (k : Fin 85) : EReal :=
  Ideal.exp (Ideal.div (dist2 X Q i k) (D (ix1 k) * D (ix1 k)))

/-- The kernel feature matrix. -/
def QF (X : ArrX) (Fm : ArrF) (Q : ArrQ) (D : ArrD) (W : ArrW) : ArrQF := fun j =>
  W (ix1 (j 1)) * ∑ i : Fin 262144, wgt X Q D i (j 0) * Fm (ix2 i (j 1))

/-- `(F · Gᵀ) i k`. -/
def fg (Fm : ArrF) (G : ArrQF) (i : Fin 262144) (k : Fin 85) : EReal :=
  ∑ f : Fin 16, Fm (ix2 i f) * G (ix2 k f)

/-- `(F · Gᵀ · G) i f`. -/
def fgg (Fm : ArrF) (G : ArrQF) (i : Fin 262144) (f : Fin 16) : EReal :=
  ∑ k : Fin 85, fg Fm G i k * G (ix2 k f)

/-- The result: columns 0–15 are F, columns 16–100 are F · Gᵀ, columns 101–116 are F · Gᵀ · G. -/
def OUT (Fm : ArrF) (G : ArrQF) : ArrOut := fun j =>
  if h₁ : (j 1).val < 16 then Fm (ix2 (j 0) ⟨(j 1).val, h₁⟩)
  else if h₂ : (j 1).val < 101 then fg Fm G (j 0) ⟨(j 1).val - 16, by omega⟩
  else fgg Fm G (j 0) ⟨(j 1).val - 101, by have := (j 1).isLt; simp only [Matrix.cons_val_one, Matrix.cons_val_zero] at this; omega⟩

/-! ## The kernel's arrangement -/

/-- What the host lines before the first call make of the kernel points, the widths and the weights. -/
def qtOf (Q : ArrQ) : ArrQt := fun j => Q (ix2 (j 1) (j 0))
def qnOf (Q : ArrQ) : ArrRow85 := fun j => zeroW + ∑ c : Fin 3, Q (ix2 (j 1) c) * Q (ix2 (j 1) c)
def odOf (D : ArrD) : ArrRow85 := fun j => D (ix1 (j 1)) * D (ix1 (j 1))
def wOf (W : ArrW) : ArrRow16 := fun j => W (ix1 (j 1))

/-- The squared distance with the square expanded: |x|² + |q|² − 2 · x·q. -/
def dist2K (X : ArrX) (qt : ArrQt) (qn : ArrRow85) (i : Fin 262144) (k : Fin 85) : EReal :=
  ((X (ix2 i 0) * X (ix2 i 0) + X (ix2 i 1) * X (ix2 i 1)) + X (ix2 i 2) * X (ix2 i 2)) + qn (ix2 0 k)
    - twoW * ((X (ix2 i 0) * qt (ix2 0 k) + X (ix2 i 1) * qt (ix2 1 k)) + X (ix2 i 2) * qt (ix2 2 k))

def wgtK (X : ArrX) (qt : ArrQt) (qn od : ArrRow85) (i : Fin 262144) (k : Fin 85) : EReal :=
  Ideal.exp (Ideal.div (dist2K X qt qn i k) (od (ix2 0 k)))

/-- The first call's result: the accumulated sum, scaled on the right by the weight. -/
def qfK (qt : ArrQt) (qn od : ArrRow85) (w : ArrRow16) (X : ArrX) (Fm : ArrF) : ArrQF := fun j =>
  (∑ i : Fin 262144, wgtK X qt qn od i (j 0) * Fm (ix2 i (j 1))) * w (ix2 0 (j 1))

end Cert.Spec

end
-- ==== Proof.KI.PayloadIdeal.lean ====
/-
  The kernel bodies' arithmetic read at one index, at the ideal values (extended reals).

  One accumulation step at (k, g): the accumulator there plus the sum over the block's 2048 rows j of the
  row's weight at kernel point k (`wblk`: the exponential of the expanded squared distance over the squared
  width) times the row's feature g. The zero block is 0 everywhere. The scaled result at (k, g) is the
  accumulator there times the weight g. The second body's block at (r, col): the feature col of row r for
  col < 16; for 16 ≤ col < 101 the product of row r's features with row col − 16 of the matrix; beyond, that
  product row times column col − 101 of the matrix. A change of float format is the identity here, and a
  matrix product into a zero accumulator is the plain sum over the contracted axis.
-/
import proofs.«156445_j2207613190522_1_alg».proof.Proof.KI.Data0
import proofs.«156445_j2207613190522_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe

/-- The weight of row `j` of a block of points at kernel point `k`, in the kernel's arrangement. -/
def wblk (x : Vec Ideal S2048x3 .f32) (q : Vec Ideal S3x85 .f32) (qn od : Vec Ideal S1x85 .f32) (j : Fin 2048) (k : Fin 85) : EReal :=
  Ideal.exp (Ideal.div
    (((x (ix2 j 0) * x (ix2 j 0) + x (ix2 j 1) * x (ix2 j 1)) + x (ix2 j 2) * x (ix2 j 2)) + qn (ix2 0 k)
      - Cert.Spec.twoW * ((x (ix2 j 0) * q (ix2 0 k) + x (ix2 j 1) * q (ix2 1 k)) + x (ix2 j 2) * q (ix2 2 k)))
    (od (ix2 0 k)))

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector reads the exponential of its entry. -/
theorem exp_apply {s : Shape} {φ : FTy} (a : FVec Ideal s φ) (i : s.Idx) : exp a i = Ideal.exp (a i) := rfl

/-- The block's weights at an index: entry `(j, k)` is the weight of row `j` at kernel point `k`; the change of
    float format is the identity. -/
theorem k0_pay4_apply (x : Vec Ideal S2048x3 .f32) (q : Vec Ideal S3x85 .f32) (qn od : Vec Ideal S1x85 .f32) (j : Fin 2048) (k : Fin 85) :
    k0_pay4 (F := Ideal) x q qn od (ix2 j k) = wblk x q qn od j k := by
  have x0 : ∀ p : Fin 2048, extractStridedSlice S2048x1 ![0, 0] x slices_S2048x3_o0_0_S2048x1 (ix2 p (0 : Fin 1)) = x (ix2 p 0) :=
    fun p => slice2_axis1_apply 0 x _ p 0 0 rfl
  have x1 : ∀ p : Fin 2048, extractStridedSlice S2048x1 ![0, 1] x slices_S2048x3_o0_1_S2048x1 (ix2 p (0 : Fin 1)) = x (ix2 p 1) :=
    fun p => slice2_axis1_apply 1 x _ p 0 1 rfl
  have x2 : ∀ p : Fin 2048, extractStridedSlice S2048x1 ![0, 2] x slices_S2048x3_o0_2_S2048x1 (ix2 p (0 : Fin 1)) = x (ix2 p 2) :=
    fun p => slice2_axis1_apply 2 x _ p 0 2 rfl
  have q0 : ∀ c : Fin 85, extractStridedSlice S1x85 ![0, 0] q slices_S3x85_o0_0_S1x85 (ix2 (0 : Fin 1) c) = q (ix2 0 c) :=
    fun c => slice2_axis0_apply 0 q _ 0 c 0 rfl
  have q1 : ∀ c : Fin 85, extractStridedSlice S1x85 ![1, 0] q slices_S3x85_o1_0_S1x85 (ix2 (0 : Fin 1) c) = q (ix2 1 c) :=
    fun c => slice2_axis0_apply 1 q _ 0 c 1 rfl
  have q2 : ∀ c : Fin 85, extractStridedSlice S1x85 ![2, 0] q slices_S3x85_o2_0_S1x85 (ix2 (0 : Fin 1) c) = q (ix2 2 c) :=
    fun c => slice2_axis0_apply 2 q _ 0 c 2 rfl
  unfold k0_pay4 wblk
  simp only [shapeCast_self]
  simp only [truncf_apply, exp_apply, divf_apply, subf_apply, addf_apply, mulf_apply, broadcast_apply,
    broadcastTo_a1_ab_apply, broadcastTo_1b_ab_apply, x0, x1, x2, q0, q1, q2]
  rfl

/-! ## The three matrix products into a zero accumulator, read at an index -/

-- Each operand's index at an output index and a contraction position, axis by axis: the contracted axis reads the
-- contraction position, the other axis reads the output coordinate it contributes.
theorem lhs_k0mm_0 (i : S85x16.Idx) (q : dot_S2048x85_S2048x16_S85x16_0_0_1_1_n_n.contr.Idx) :
    (dot_S2048x85_S2048x16_S85x16_0_0_1_1_n_n.lhsIdx i q 0).val = (q ⟨0, by decide⟩).val :=
  dot_S2048x85_S2048x16_S85x16_0_0_1_1_n_n.lhsIdx_val_of_single rfl i q
theorem lhs_k0mm_1 (i : S85x16.Idx) (q : dot_S2048x85_S2048x16_S85x16_0_0_1_1_n_n.contr.Idx) :
    (dot_S2048x85_S2048x16_S85x16_0_0_1_1_n_n.lhsIdx i q 1).val = (i 0).val := by
  unfold DotDims.lhsIdx
  rw [dif_neg (show ¬(1 : Fin S2048x85.rank) ∈ dot_S2048x85_S2048x16_S85x16_0_0_1_1_n_n.lhsBatch by decide), dif_pos (show (1 : Fin S2048x85.rank) ∈ dot_S2048x85_S2048x16_S85x16_0_0_1_1_n_n.lhsNonContracting by decide)]
  rfl
theorem rhs_k0mm_0 (i : S85x16.Idx) (q : dot_S2048x85_S2048x16_S85x16_0_0_1_1_n_n.contr.Idx) :
    (dot_S2048x85_S2048x16_S85x16_0_0_1_1_n_n.rhsIdx i q 0).val = (q ⟨0, by decide⟩).val :=
  dot_S2048x85_S2048x16_S85x16_0_0_1_1_n_n.rhsIdx_val_of_single rfl i q
theorem rhs_k0mm_1 (i : S85x16.Idx) (q : dot_S2048x85_S2048x16_S85x16_0_0_1_1_n_n.contr.Idx) :
    (dot_S2048x85_S2048x16_S85x16_0_0_1_1_n_n.rhsIdx i q 1).val = (i 1).val := by
  unfold DotDims.rhsIdx
  rw [dif_neg (show ¬(1 : Fin S2048x16.rank) ∈ dot_S2048x85_S2048x16_S85x16_0_0_1_1_n_n.rhsBatch by decide), dif_pos (show (1 : Fin S2048x16.rank) ∈ dot_S2048x85_S2048x16_S85x16_0_0_1_1_n_n.rhsNonContracting by decide)]
  rfl

/-- The first body's product, contracted over the rows of both operands: entry `(k, g)` is the sum over the rows
    `j` of the left operand at `(j, k)` times the right at `(j, g)`. -/
theorem k0_mm_apply (a : FVec Ideal S2048x85 .bf16) (b : FVec Ideal S2048x16 .bf16) (k : Fin 85) (g : Fin 16) :
    matmul dot_S2048x85_S2048x16_S85x16_0_0_1_1_n_n none a b (constant (F := Ideal) S85x16 .f32 0x00000000#32) (ix2 k g)
      = ∑ j : Fin 2048, a (ix2 j k) * b (ix2 j g) := by
  simp only [matmul]
  rw [Ideal.matmul_constant_zero_apply, ← Equiv.sum_comp (ValueIdx.contrEquiv1 dot_S2048x85_S2048x16_S85x16_0_0_1_1_n_n 2048 rfl rfl).symm]
  refine Finset.sum_congr rfl fun j _ => ?_
  have hk := ValueIdx.contrEquiv1_symm_val dot_S2048x85_S2048x16_S85x16_0_0_1_1_n_n 2048 rfl rfl j
  have el : dot_S2048x85_S2048x16_S85x16_0_0_1_1_n_n.lhsIdx (ix2 k g) ((ValueIdx.contrEquiv1 dot_S2048x85_S2048x16_S85x16_0_0_1_1_n_n 2048 rfl rfl).symm j) = ix2 j k := funext fun ax => Fin.ext (by
    match ax with
    | ⟨0, _⟩ => exact (lhs_k0mm_0 _ _).trans hk
    | ⟨1, _⟩ => exact lhs_k0mm_1 _ _)
  have er : dot_S2048x85_S2048x16_S85x16_0_0_1_1_n_n.rhsIdx (ix2 k g) ((ValueIdx.contrEquiv1 dot_S2048x85_S2048x16_S85x16_0_0_1_1_n_n 2048 rfl rfl).symm j) = ix2 j g := funext fun ax => Fin.ext (by
    match ax with
    | ⟨0, _⟩ => exact (rhs_k0mm_0 _ _).trans hk
    | ⟨1, _⟩ => exact rhs_k0mm_1 _ _)
  rw [el, er]

theorem lhs_k1mmA_0 (i : S4096x85.Idx) (q : dot_S4096x16_S85x16_S4096x85_1_1_0_0_n_n.contr.Idx) :
    (dot_S4096x16_S85x16_S4096x85_1_1_0_0_n_n.lhsIdx i q 0).val = (i 0).val := by
  unfold DotDims.lhsIdx
  rw [dif_neg (show ¬(0 : Fin S4096x16.rank) ∈ dot_S4096x16_S85x16_S4096x85_1_1_0_0_n_n.lhsBatch by decide), dif_pos (show (0 : Fin S4096x16.rank) ∈ dot_S4096x16_S85x16_S4096x85_1_1_0_0_n_n.lhsNonContracting by decide)]
  rfl
theorem lhs_k1mmA_1 (i : S4096x85.Idx) (q : dot_S4096x16_S85x16_S4096x85_1_1_0_0_n_n.contr.Idx) :
    (dot_S4096x16_S85x16_S4096x85_1_1_0_0_n_n.lhsIdx i q 1).val = (q ⟨0, by decide⟩).val :=
  dot_S4096x16_S85x16_S4096x85_1_1_0_0_n_n.lhsIdx_val_of_single rfl i q
theorem rhs_k1mmA_0 (i : S4096x85.Idx) (q : dot_S4096x16_S85x16_S4096x85_1_1_0_0_n_n.contr.Idx) :
    (dot_S4096x16_S85x16_S4096x85_1_1_0_0_n_n.rhsIdx i q 0).val = (i 1).val := by
  unfold DotDims.rhsIdx
  rw [dif_neg (show ¬(0 : Fin S85x16.rank) ∈ dot_S4096x16_S85x16_S4096x85_1_1_0_0_n_n.rhsBatch by decide), dif_pos (show (0 : Fin S85x16.rank) ∈ dot_S4096x16_S85x16_S4096x85_1_1_0_0_n_n.rhsNonContracting by decide)]
  rfl
theorem rhs_k1mmA_1 (i : S4096x85.Idx) (q : dot_S4096x16_S85x16_S4096x85_1_1_0_0_n_n.contr.Idx) :
    (dot_S4096x16_S85x16_S4096x85_1_1_0_0_n_n.rhsIdx i q 1).val = (q ⟨0, by decide⟩).val :=
  dot_S4096x16_S85x16_S4096x85_1_1_0_0_n_n.rhsIdx_val_of_single rfl i q

/-- The second body's first product, contracted over the columns of both operands: entry `(r, c)` is the sum over
    the features `f` of the left operand at `(r, f)` times the right at `(c, f)`. -/
theorem k1_mmA_apply (a : FVec Ideal S4096x16 .bf16) (b : FVec Ideal S85x16 .bf16) (r : Fin 4096) (c : Fin 85) :
    matmul dot_S4096x16_S85x16_S4096x85_1_1_0_0_n_n none a b (constant (F := Ideal) S4096x85 .f32 0x00000000#32) (ix2 r c)
      = ∑ f : Fin 16, a (ix2 r f) * b (ix2 c f) := by
  simp only [matmul]
  rw [Ideal.matmul_constant_zero_apply, ← Equiv.sum_comp (ValueIdx.contrEquiv1 dot_S4096x16_S85x16_S4096x85_1_1_0_0_n_n 16 rfl rfl).symm]
  refine Finset.sum_congr rfl fun f _ => ?_
  have hk := ValueIdx.contrEquiv1_symm_val dot_S4096x16_S85x16_S4096x85_1_1_0_0_n_n 16 rfl rfl f
  have el : dot_S4096x16_S85x16_S4096x85_1_1_0_0_n_n.lhsIdx (ix2 r c) ((ValueIdx.contrEquiv1 dot_S4096x16_S85x16_S4096x85_1_1_0_0_n_n 16 rfl rfl).symm f) = ix2 r f := funext fun ax => Fin.ext (by
    match ax with
    | ⟨0, _⟩ => exact lhs_k1mmA_0 _ _
    | ⟨1, _⟩ => exact (lhs_k1mmA_1 _ _).trans hk)
  have er : dot_S4096x16_S85x16_S4096x85_1_1_0_0_n_n.rhsIdx (ix2 r c) ((ValueIdx.contrEquiv1 dot_S4096x16_S85x16_S4096x85_1_1_0_0_n_n 16 rfl rfl).symm f) = ix2 c f := funext fun ax => Fin.ext (by
    match ax with
    | ⟨0, _⟩ => exact rhs_k1mmA_0 _ _
    | ⟨1, _⟩ => exact (rhs_k1mmA_1 _ _).trans hk)
  rw [el, er]

theorem lhs_k1mmB_0 (i : S4096x16.Idx) (q : dot_S4096x85_S85x16_S4096x16_1_0_0_1_n_n.contr.Idx) :
    (dot_S4096x85_S85x16_S4096x16_1_0_0_1_n_n.lhsIdx i q 0).val = (i 0).val := by
  unfold DotDims.lhsIdx
  rw [dif_neg (show ¬(0 : Fin S4096x85.rank) ∈ dot_S4096x85_S85x16_S4096x16_1_0_0_1_n_n.lhsBatch by decide), dif_pos (show (0 : Fin S4096x85.rank) ∈ dot_S4096x85_S85x16_S4096x16_1_0_0_1_n_n.lhsNonContracting by decide)]
  rfl
theorem lhs_k1mmB_1 (i : S4096x16.Idx) (q : dot_S4096x85_S85x16_S4096x16_1_0_0_1_n_n.contr.Idx) :
    (dot_S4096x85_S85x16_S4096x16_1_0_0_1_n_n.lhsIdx i q 1).val = (q ⟨0, by decide⟩).val :=
  dot_S4096x85_S85x16_S4096x16_1_0_0_1_n_n.lhsIdx_val_of_single rfl i q
theorem rhs_k1mmB_0 (i : S4096x16.Idx) (q : dot_S4096x85_S85x16_S4096x16_1_0_0_1_n_n.contr.Idx) :
    (dot_S4096x85_S85x16_S4096x16_1_0_0_1_n_n.rhsIdx i q 0).val = (q ⟨0, by decide⟩).val :=
  dot_S4096x85_S85x16_S4096x16_1_0_0_1_n_n.rhsIdx_val_of_single rfl i q
theorem rhs_k1mmB_1 (i : S4096x16.Idx) (q : dot_S4096x85_S85x16_S4096x16_1_0_0_1_n_n.contr.Idx) :
    (dot_S4096x85_S85x16_S4096x16_1_0_0_1_n_n.rhsIdx i q 1).val = (i 1).val := by
  unfold DotDims.rhsIdx
  rw [dif_neg (show ¬(1 : Fin S85x16.rank) ∈ dot_S4096x85_S85x16_S4096x16_1_0_0_1_n_n.rhsBatch by decide), dif_pos (show (1 : Fin S85x16.rank) ∈ dot_S4096x85_S85x16_S4096x16_1_0_0_1_n_n.rhsNonContracting by decide)]
  rfl

/-- The second body's second product, the plain one: entry `(r, c)` is the sum over `k` of the left operand at
    `(r, k)` times the right at `(k, c)`. -/
theorem k1_mmB_apply (a : FVec Ideal S4096x85 .bf16) (b : FVec Ideal S85x16 .bf16) (r : Fin 4096) (c : Fin 16) :
    matmul dot_S4096x85_S85x16_S4096x16_1_0_0_1_n_n none a b (constant (F := Ideal) S4096x16 .f32 0x00000000#32) (ix2 r c)
      = ∑ k : Fin 85, a (ix2 r k) * b (ix2 k c) := by
  simp only [matmul]
  rw [Ideal.matmul_constant_zero_apply, ← Equiv.sum_comp (ValueIdx.contrEquiv1 dot_S4096x85_S85x16_S4096x16_1_0_0_1_n_n 85 rfl rfl).symm]
  refine Finset.sum_congr rfl fun k _ => ?_
  have hk := ValueIdx.contrEquiv1_symm_val dot_S4096x85_S85x16_S4096x16_1_0_0_1_n_n 85 rfl rfl k
  have el : dot_S4096x85_S85x16_S4096x16_1_0_0_1_n_n.lhsIdx (ix2 r c) ((ValueIdx.contrEquiv1 dot_S4096x85_S85x16_S4096x16_1_0_0_1_n_n 85 rfl rfl).symm k) = ix2 r k := funext fun ax => Fin.ext (by
    match ax with
    | ⟨0, _⟩ => exact lhs_k1mmB_0 _ _
    | ⟨1, _⟩ => exact (lhs_k1mmB_1 _ _).trans hk)
  have er : dot_S4096x85_S85x16_S4096x16_1_0_0_1_n_n.rhsIdx (ix2 r c) ((ValueIdx.contrEquiv1 dot_S4096x85_S85x16_S4096x16_1_0_0_1_n_n 85 rfl rfl).symm k) = ix2 k c := funext fun ax => Fin.ext (by
    match ax with
    | ⟨0, _⟩ => exact (rhs_k1mmB_0 _ _).trans hk
    | ⟨1, _⟩ => exact rhs_k1mmB_1 _ _)
  rw [el, er]

/-! ## Three blocks joined along the columns -/

/-- Three blocks of 16, 85 and 16 columns joined along the columns, read at `(r, col)`: the block whose span holds
    `col`, at the column counted from the block's first. -/
theorem concat3_apply (A : S4096x16.Idx → EReal) (B : S4096x85.Idx → EReal) (C : S4096x16.Idx → EReal) (r : Fin 4096) (col : Fin 117) :
    concatenate S4096x117 1 [⟨S4096x16, A⟩, ⟨S4096x85, B⟩, ⟨S4096x16, C⟩] concatenates_S4096x16_S4096x85_S4096x16_S4096x117_d1 (ix2 r col)
      = if h₁ : col.val < 16 then A (ix2 r ⟨col.val, h₁⟩)
        else if h₂ : col.val < 101 then B (ix2 r (⟨col.val - 16, by omega⟩ : Fin 85))
        else C (ix2 r (⟨col.val - 101, by omega⟩ : Fin 16)) := by
  by_cases h₁ : col.val < 16
  · rw [dif_pos h₁]
    refine concatenate_apply_piece 1 [⟨S4096x16, A⟩, ⟨S4096x85, B⟩, ⟨S4096x16, C⟩] concatenates_S4096x16_S4096x85_S4096x16_S4096x117_d1 (ix2 r col) 0 (show (0 : ℕ) < 3 by decide) S4096x16 A rfl rfl 0 rfl (ix2 r ⟨col.val, h₁⟩) (fun b => ?_) ?_
    · match b with
      | ⟨0, _⟩ => exact fun _ => rfl
      | ⟨1, _⟩ => exact fun hb => absurd rfl hb
    · show 0 + col.val = col.val
      omega
  · rw [dif_neg h₁]
    by_cases h₂ : col.val < 101
    · rw [dif_pos h₂]
      refine concatenate_apply_piece 1 [⟨S4096x16, A⟩, ⟨S4096x85, B⟩, ⟨S4096x16, C⟩] concatenates_S4096x16_S4096x85_S4096x16_S4096x117_d1 (ix2 r col) 1 (show (1 : ℕ) < 3 by decide) S4096x85 B rfl rfl 16 rfl (ix2 r (⟨col.val - 16, by omega⟩ : Fin 85)) (fun b => ?_) ?_
      · match b with
        | ⟨0, _⟩ => exact fun _ => rfl
        | ⟨1, _⟩ => exact fun hb => absurd rfl hb
      · show 16 + (col.val - 16) = col.val
        omega
    · rw [dif_neg h₂]
      refine concatenate_apply_piece 1 [⟨S4096x16, A⟩, ⟨S4096x85, B⟩, ⟨S4096x16, C⟩] concatenates_S4096x16_S4096x85_S4096x16_S4096x117_d1 (ix2 r col) 2 (show (2 : ℕ) < 3 by decide) S4096x16 C rfl rfl 101 rfl (ix2 r (⟨col.val - 101, by omega⟩ : Fin 16)) (fun b => ?_) ?_
      · match b with
        | ⟨0, _⟩ => exact fun _ => rfl
        | ⟨1, _⟩ => exact fun hb => absurd rfl hb
      · show 101 + (col.val - 101) = col.val
        omega

/-- One accumulation step at an index. -/
theorem accStep_apply (s : Vec Ideal S85x16 .f32) (q : Vec Ideal S3x85 .f32) (qn od : Vec Ideal S1x85 .f32)
    (x : Vec Ideal S2048x3 .f32) (f : Vec Ideal S2048x16 .f32) (k : Fin 85) (g : Fin 16) :
    accStep (F := Ideal) s q qn od x f (ix2 k g) = s (ix2 k g) + ∑ j : Fin 2048, wblk x q qn od j k * f (ix2 j g) := by
  unfold accStep k0_pay1
  rw [shapeCast_self]
  show s (ix2 k g) + matmul dot_S2048x85_S2048x16_S85x16_0_0_1_1_n_n none (k0_pay4 x q qn od) (k0_pay5 f)
    (constant (F := Ideal) S85x16 .f32 0x00000000#32) (ix2 k g) = _
  rw [k0_mm_apply]
  refine congrArg (s (ix2 k g) + ·) (Finset.sum_congr rfl fun j _ => ?_)
  rw [k0_pay4_apply]
  rfl

/-- The zero block is zero. -/
theorem k0_pay3_apply (j : S85x16.Idx) : k0_pay3 (F := Ideal) j = 0 := by
  unfold k0_pay3
  rw [shapeCast_self]
  exact Ideal.ofBits_zero_f32

/-- The scaled result at an index. -/
theorem k0_pay2_apply (a : Vec Ideal S85x16 .f32) (w : Vec Ideal S1x16 .f32) (k : Fin 85) (g : Fin 16) :
    k0_pay2 (F := Ideal) a w (ix2 k g) = a (ix2 k g) * w (ix2 0 g) := by
  unfold k0_pay2
  rw [shapeCast_self]
  show a (ix2 k g) * broadcastTo S85x16 w broadcasts_S1x16_S85x16 (ix2 k g) = _
  rw [broadcastTo_1b_ab_apply]

/-- The second body's block at an index: the three column ranges. -/
theorem k1_pay1_apply (x0 : Vec Ideal S4096x16 .f32) (x1 : Vec Ideal S85x16 .f32) (r : Fin 4096) (col : Fin 117) :
    k1_pay1 (F := Ideal) x0 x1 (ix2 r col)
      = if h₁ : col.val < 16 then x0 (ix2 r ⟨col.val, h₁⟩)
        else if h₂ : col.val < 101 then ∑ f : Fin 16, x0 (ix2 r f) * x1 (ix2 (⟨col.val - 16, by omega⟩ : Fin 85) f)
        else ∑ k : Fin 85, (∑ f : Fin 16, x0 (ix2 r f) * x1 (ix2 k f)) * x1 (ix2 k (⟨col.val - 101, by omega⟩ : Fin 16)) := by
  unfold k1_pay1
  simp only [shapeCast_self]
  rw [concat3_apply]
  by_cases h₁ : col.val < 16
  · rw [dif_pos h₁, dif_pos h₁]
  · rw [dif_neg h₁, dif_neg h₁]
    by_cases h₂ : col.val < 101
    · rw [dif_pos h₂, dif_pos h₂, k1_mmA_apply]
      rfl
    · rw [dif_neg h₂, dif_neg h₂, k1_mmB_apply]
      refine Finset.sum_congr rfl fun k _ => ?_
      show matmul dot_S4096x16_S85x16_S4096x85_1_1_0_0_n_n none (truncf .bf16 x0 bitsLt_bf16_f32) (truncf .bf16 x1 bitsLt_bf16_f32)
        (constant (F := Ideal) S4096x85 .f32 0x00000000#32) (ix2 r k) * x1 (ix2 k _) = _
      rw [k1_mmA_apply]
      rfl

end Cert.KernelIdeal.Hand

end
-- ==== Proof.KI.Value0.lean ====
/-
  What the first pallas_call leaves in its result array: the kernel feature matrix in the kernel's arrangement,
  as a function of the six arrays the region finds (the transposed table, the norms, the squared widths, the
  weights, the points, the features).

  The accumulator after point n holds, at (k, g), the sum over the first 2048·(n+1) points of the point's weight
  at k times its feature g: each point's block is rows 2048·n … 2048·n + 2047 of the two streamed arrays, and
  the four small operands' blocks are their whole arrays. After the last point that is the sum over all 262144
  points. The result window is written back once, at the last point, and its one block is the whole array.
-/
import proofs.«156445_j2207613190522_1_alg».proof.Proof.KI.PayloadIdeal
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)

-- every unscoped buffer's contents when the region is entered, per core, at the ideal values
variable (V : (c : Dev nD) → (b : Ref sig .tc) → Buf (Elt Ideal) ((c : Thread nD τ).loc b))

/-! ## The index maps over the grid -/

/-- The four small operands and the result sit at block (0, 0) at every point; the points and the features at
    block (t, 0). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-! ## Each block as rows of its array -/

/-- The table's block is the table. -/
theorem blk0_read (c : Dev nD) (t : Fin cfg0.N) (a : Fin 3) (b : Fin 85) :
    (iblk0 V c 0 t : Vec Ideal S3x85 .f32) (ix2 a b) = (V c main_v0 : S3x85.Idx → EReal) (ix2 a b) := by
  obtain ⟨e0, e1, -⟩ := idx0 t
  unfold iblk0
  rw [View.read_apply]
  show V c main_v0 _ = V c main_v0 _
  congr 1
  funext d
  apply Fin.ext
  match d with
  | ⟨0, _⟩ => show win0_0.index t (0 : Fin 2) * 3 + 1 * a.val = a.val; rw [e0]; omega
  | ⟨1, _⟩ => show win0_0.index t (1 : Fin 2) * 85 + 1 * b.val = b.val; rw [e1]; omega

/-- The norms' block is the norms' row. -/
theorem blk1_read (c : Dev nD) (t : Fin cfg0.N) (a : Fin 1) (b : Fin 85) :
    (iblk0 V c 1 t : Vec Ideal S1x85 .f32) (ix2 a b) = (V c main_v3 : S1x85.Idx → EReal) (ix2 a b) := by
  obtain ⟨-, -, e0, e1, -⟩ := idx0 t
  unfold iblk0
  rw [View.read_apply]
  show V c main_v3 _ = V c main_v3 _
  congr 1
  funext d
  apply Fin.ext
  match d with
  | ⟨0, _⟩ => show win0_1.index t (0 : Fin 2) * 1 + 1 * a.val = a.val; rw [e0]; omega
  | ⟨1, _⟩ => show win0_1.index t (1 : Fin 2) * 85 + 1 * b.val = b.val; rw [e1]; omega

/-- The squared widths' block is their row. -/
theorem blk2_read (c : Dev nD) (t : Fin cfg0.N) (a : Fin 1) (b : Fin 85) :
    (iblk0 V c 2 t : Vec Ideal S1x85 .f32) (ix2 a b) = (V c main_v5 : S1x85.Idx → EReal) (ix2 a b) := by
  obtain ⟨-, -, -, -, e0, e1, -⟩ := idx0 t
  unfold iblk0
  rw [View.read_apply]
  show V c main_v5 _ = V c main_v5 _
  congr 1
  funext d
  apply Fin.ext
  match d with
  | ⟨0, _⟩ => show win0_2.index t (0 : Fin 2) * 1 + 1 * a.val = a.val; rw [e0]; omega
  | ⟨1, _⟩ => show win0_2.index t (1 : Fin 2) * 85 + 1 * b.val = b.val; rw [e1]; omega

/-- The weights' block is their row. -/
theorem blk3_read (c : Dev nD) (t : Fin cfg0.N) (a : Fin 1) (b : Fin 16) :
    (iblk0 V c 3 t : Vec Ideal S1x16 .f32) (ix2 a b) = (V c main_v6 : S1x16.Idx → EReal) (ix2 a b) := by
  obtain ⟨-, -, -, -, -, -, e0, e1, -⟩ := idx0 t
  unfold iblk0
  rw [View.read_apply]
  show V c main_v6 _ = V c main_v6 _
  congr 1
  funext d
  apply Fin.ext
  match d with
  | ⟨0, _⟩ => show win0_3.index t (0 : Fin 2) * 1 + 1 * a.val = a.val; rw [e0]; omega
  | ⟨1, _⟩ => show win0_3.index t (1 : Fin 2) * 16 + 1 * b.val = b.val; rw [e1]; omega

/-- Row j of the block of points at point t is row 2048·t + j of the points. -/
theorem blk4_read (c : Dev nD) (t : Fin cfg0.N) (j : Fin 2048) (a : Fin 3) (i : Fin 262144)
    (hi : i.val = 2048 * t.val + j.val) :
    (iblk0 V c 4 t : Vec Ideal S2048x3 .f32) (ix2 j a) = (V c main_arg0 : S262144x3.Idx → EReal) (ix2 i a) := by
  obtain ⟨-, -, -, -, -, -, -, -, e0, e1, -⟩ := idx0 t
  unfold iblk0
  rw [View.read_apply]
  show V c main_arg0 _ = V c main_arg0 _
  congr 1
  funext d
  apply Fin.ext
  match d with
  | ⟨0, _⟩ => show win0_4.index t (0 : Fin 2) * 2048 + 1 * j.val = i.val; rw [e0, hi]; omega
  | ⟨1, _⟩ => show win0_4.index t (1 : Fin 2) * 3 + 1 * a.val = a.val; rw [e1]; omega

/-- Row j of the block of features at point t is row 2048·t + j of the features. -/
theorem blk5_read (c : Dev nD) (t : Fin cfg0.N) (j : Fin 2048) (g : Fin 16) (i : Fin 262144)
    (hi : i.val = 2048 * t.val + j.val) :
    (iblk0 V c 5 t : Vec Ideal S2048x16 .f32) (ix2 j g) = (V c main_arg1 : S262144x16.Idx → EReal) (ix2 i g) := by
  obtain ⟨-, -, -, -, -, -, -, -, -, -, e0, e1, -⟩ := idx0 t
  unfold iblk0
  rw [View.read_apply]
  show V c main_arg1 _ = V c main_arg1 _
  congr 1
  funext d
  apply Fin.ext
  match d with
  | ⟨0, _⟩ => show win0_5.index t (0 : Fin 2) * 2048 + 1 * j.val = i.val; rw [e0, hi]; omega
  | ⟨1, _⟩ => show win0_5.index t (1 : Fin 2) * 16 + 1 * g.val = g.val; rw [e1]; omega

/-! ## The accumulation -/

/-- What block p of points adds to the sum at (k, g); nothing past the last block. -/
def blkSum (qt : Cert.Spec.ArrQt) (qn od : Cert.Spec.ArrRow85) (X : Cert.Spec.ArrX) (Fm : Cert.Spec.ArrF)
    (k : Fin 85) (g : Fin 16) (p : ℕ) : EReal :=
  if h : p < 128 then
    ∑ j : Fin 2048, Cert.Spec.wgtK X qt qn od ⟨2048 * p + j.val, by omega⟩ k * Fm (ix2 ⟨2048 * p + j.val, by omega⟩ g)
  else 0

/-- One step on blocks that are the arrays' rows adds that block's contribution. -/
theorem accStep_block (qt : Cert.Spec.ArrQt) (qn od : Cert.Spec.ArrRow85) (X : Cert.Spec.ArrX) (Fm : Cert.Spec.ArrF)
    (s : Vec Ideal S85x16 .f32) (q : Vec Ideal S3x85 .f32) (qnv odv : Vec Ideal S1x85 .f32)
    (x : Vec Ideal S2048x3 .f32) (f : Vec Ideal S2048x16 .f32) (p : ℕ) (hp : p < 128)
    (hq : ∀ (a : Fin 3) (b : Fin 85), q (ix2 a b) = qt (ix2 a b))
    (hqn : ∀ b : Fin 85, qnv (ix2 0 b) = qn (ix2 0 b))
    (hod : ∀ b : Fin 85, odv (ix2 0 b) = od (ix2 0 b))
    (hx : ∀ (j : Fin 2048) (a : Fin 3), x (ix2 j a) = X (ix2 ⟨2048 * p + j.val, by omega⟩ a))
    (hf : ∀ (j : Fin 2048) (g : Fin 16), f (ix2 j g) = Fm (ix2 ⟨2048 * p + j.val, by omega⟩ g))
    (k : Fin 85) (g : Fin 16) :
    accStep (F := Ideal) s q qnv odv x f (ix2 k g) = s (ix2 k g) + blkSum qt qn od X Fm k g p := by
  rw [accStep_apply]
  congr 1
  unfold blkSum
  rw [dif_pos hp]
  refine Finset.sum_congr rfl fun j _ => ?_
  unfold wblk Cert.Spec.wgtK Cert.Spec.dist2K
  rw [hx, hx, hx, hq, hq, hq, hqn, hod, hf]

/-- The accumulator after point n, at (k, g): the contributions of blocks 0 … n. -/
theorem accAt_eq (c : Dev nD) (k : Fin 85) (g : Fin 16) (n : ℕ) : ∀ hn : n < cfg0.N,
    accAt V c n hn (ix2 k g)
      = ∑ p ∈ Finset.range (n + 1), blkSum (V c main_v0) (V c main_v3) (V c main_v5) (V c main_arg0) (V c main_arg1) k g p := by
  have hN : cfg0.N = 128 := N_0
  induction n with
  | zero =>
    intro hn
    rw [accAt_zero]
    refine (accStep_block (V c main_v0) (V c main_v3) (V c main_v5) (V c main_arg0) (V c main_arg1)
      (k0_pay3 (F := Ideal)) (iblk0 V c 0 ⟨0, hn⟩) (iblk0 V c 1 ⟨0, hn⟩) (iblk0 V c 2 ⟨0, hn⟩) (iblk0 V c 4 ⟨0, hn⟩)
      (iblk0 V c 5 ⟨0, hn⟩) 0 (by omega) (fun a b => blk0_read V c _ a b) (fun b => blk1_read V c _ 0 b)
      (fun b => blk2_read V c _ 0 b) (fun j a => blk4_read V c _ j a _ rfl) (fun j g => blk5_read V c _ j g _ rfl) k g).trans ?_
    rw [k0_pay3_apply, zero_add, Finset.sum_range_one]
  | succ n ih =>
    intro hn
    rw [accAt_succ]
    refine (accStep_block (V c main_v0) (V c main_v3) (V c main_v5) (V c main_arg0) (V c main_arg1)
      (accAt V c n (Nat.lt_of_succ_lt hn)) (iblk0 V c 0 ⟨n + 1, hn⟩) (iblk0 V c 1 ⟨n + 1, hn⟩) (iblk0 V c 2 ⟨n + 1, hn⟩)
      (iblk0 V c 4 ⟨n + 1, hn⟩) (iblk0 V c 5 ⟨n + 1, hn⟩) (n + 1) (by omega) (fun a b => blk0_read V c _ a b)
      (fun b => blk1_read V c _ 0 b) (fun b => blk2_read V c _ 0 b) (fun j a => blk4_read V c _ j a _ rfl)
      (fun j g => blk5_read V c _ j g _ rfl) k g).trans ?_
    rw [ih (Nat.lt_of_succ_lt hn), Finset.sum_range_succ _ (n + 1)]

/-- Point 2048·p + j is row j of block p: the points as 128 blocks of 2048 rows. -/
def ptEquiv : Fin 128 × Fin 2048 ≃ Fin 262144 where
  toFun x := ⟨2048 * x.1.val + x.2.val, by omega⟩
  invFun i := (⟨i.val / 2048, by omega⟩, ⟨i.val % 2048, by omega⟩)
  left_inv := by
    rintro ⟨p, j⟩
    apply Prod.ext <;> apply Fin.ext
    · show (2048 * p.val + j.val) / 2048 = p.val; omega
    · show (2048 * p.val + j.val) % 2048 = j.val; omega
  right_inv := by
    intro i
    apply Fin.ext
    show 2048 * (i.val / 2048) + i.val % 2048 = i.val; omega

/-- Summing over the 262144 points is summing over the 128 blocks of 2048 rows. -/
theorem sum_points {M : Type*} [AddCommMonoid M] (f : Fin 262144 → M) :
    ∑ i : Fin 262144, f i = ∑ p : Fin 128, ∑ j : Fin 2048, f ⟨2048 * p.val + j.val, by omega⟩ :=
  ((Equiv.sum_comp ptEquiv f).symm).trans
    (Fintype.sum_prod_type' (fun (p : Fin 128) (j : Fin 2048) => f ⟨2048 * p.val + j.val, by omega⟩))

/-- After the last point the accumulator holds the whole sum. -/
theorem accAt_last (c : Dev nD) (k : Fin 85) (g : Fin 16) (n : ℕ) (hn : n < cfg0.N) (h127 : n = 127) :
    accAt V c n hn (ix2 k g)
      = ∑ i : Fin 262144, Cert.Spec.wgtK (V c main_arg0) (V c main_v0) (V c main_v3) (V c main_v5) i k * (V c main_arg1 : S262144x16.Idx → EReal) (ix2 i g) := by
  subst h127
  rw [accAt_eq V c k g 127 hn, sum_points]
  rw [← Fin.sum_univ_eq_sum_range (fun p => blkSum (V c main_v0) (V c main_v3) (V c main_v5) (V c main_arg0) (V c main_arg1) k g p) 128]
  refine Finset.sum_congr rfl fun p _ => ?_
  unfold blkSum
  rw [dif_pos p.isLt]

/-! ## The result block and the array -/

/-- At the last point the result block is the specification's matrix. -/
theorem qfAt_last (c : Dev nD) (t : Fin cfg0.N) (ht : t.val = 127) :
    (qfAt V c t : Vec Ideal S85x16 .f32)
      = Cert.Spec.qfK (V c main_v0) (V c main_v3) (V c main_v5) (V c main_v6) (V c main_arg0) (V c main_arg1) := by
  funext y
  obtain ⟨k, g, rfl⟩ : ∃ (k : Fin 85) (g : Fin 16), y = ix2 k g := ⟨y 0, y 1, eq_ix2 y⟩
  unfold qfAt
  refine (k0_pay2_apply _ _ k g).trans ?_
  rw [accAt_last V c k g t.val t.isLt ht, blk3_read V c t 0 g]
  rfl

/-- The first region's result array after the run. -/
theorem arr0_eq (c : Dev nD) :
    (dat0 V c).arrAt 6 cfg0.N
      = Cert.Spec.qfK (V c main_v0) (V c main_v3) (V c main_v5) (V c main_v6) (V c main_arg0) (V c main_arg1) := by
  have hN : cfg0.N = 128 := N_0
  refine (dat0 V c).arrAt_eq_of_cover 6 _ (fun t hf => ?_) (fun i => ?_)
  · -- the one write-back, at the last point, writes the specification's matrix through the whole-array block
    have ht : t.val = 127 := by have h := (flush0_6 t).mp hf; have := t.isLt; omega
    obtain ⟨-, -, -, -, -, -, -, -, -, -, -, -, e0, e1⟩ := idx0 t
    show (cfg0.win 6).cut (grid0.coords t) ((dat0 V c).after 6 t) = _
    rw [after0_6, qfAt_last V c t ht]
    have hz : (fun a => win0_6.index t a * main_v7.ty.shape.size a) = fun _ => 0 := funext fun a => by
      match a with
      | ⟨0, _⟩ => show win0_6.index t (0 : Fin 2) * 85 = 0; rw [e0]
      | ⟨1, _⟩ => show win0_6.index t (1 : Fin 2) * 16 = 0; rw [e1]
    exact (Memref.read_access_unit_zero (Elt Ideal) main_v7 hz (fun a => by rw [congrFun hz a]; simp) _).symm
  · -- and that block covers the array
    have h127 : 127 < cfg0.N := by omega
    obtain ⟨-, -, -, -, -, -, -, -, -, -, -, -, e0, e1⟩ := idx0 ⟨127, h127⟩
    refine ⟨⟨127, h127⟩, (flush0_6 _).mpr rfl, ?_⟩
    show i ∈ ((View.whole main_v7).slice (win0_6.rect ⟨127, h127⟩)).set
    rw [View.set_slice_whole, Rect.mem_set_unit]
    intro a
    have h0 : (i 0 : Nat) < 85 := (i 0).isLt
    have h1 : (i 1 : Nat) < 16 := (i 1).isLt
    match a with
    | ⟨0, _⟩ =>
      show win0_6.index ⟨127, h127⟩ (0 : Fin 2) * 85 ≤ (i 0 : Nat) ∧ (i 0 : Nat) < win0_6.index ⟨127, h127⟩ (0 : Fin 2) * 85 + 85
      rw [e0]; omega
    | ⟨1, _⟩ =>
      show win0_6.index ⟨127, h127⟩ (1 : Fin 2) * 16 ≤ (i 1 : Nat) ∧ (i 1 : Nat) < win0_6.index ⟨127, h127⟩ (1 : Fin 2) * 16 + 16
      rw [e1]; omega

end Cert.KernelIdeal.Hand

end
-- ==== Proof.KI.Value1.lean ====
/-
  What the second pallas_call leaves in its result array: OUT of the features and of the matrix the region finds.

  Point t's blocks are rows 4096·t … 4096·t + 4095 of the features and of the result, and the whole matrix; the
  body's block at (r, col) is the specification at row 4096·t + r, so every point writes back its block of one
  whole-array function, and the 64 blocks cover the result array.
-/
import proofs.«156445_j2207613190522_1_alg».proof.Proof.KI.PayloadIdeal
import proofs.«156445_j2207613190522_1_alg».proof.Proof.KI.Data1
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)

-- every unscoped buffer's contents when the region is entered, per core, at the ideal values
variable (V : (c : Dev nD) → (b : Ref sig .tc) → Buf (Elt Ideal) ((c : Thread nD τ).loc b))

/-- At each of the 64 points t the features' window and the result's window sit at block (t, 0), and the
    matrix's window at block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of the features' block at point t is row 4096·t + r of the features. -/
theorem featBlock1_apply (c : Dev nD) (t : Fin cfg1.N) (r : Fin 4096) (f : Fin 16) (i : Fin 262144)
    (hi : i.val = 4096 * t.val + r.val) :
    (iblk1 V c 0 t : Vec Ideal S4096x16 .f32) (ix2 r f) = (V c main_arg1 : S262144x16.Idx → EReal) (ix2 i f) := by
  obtain ⟨e0, e1, -⟩ := blockIdx1 t
  unfold iblk1
  rw [View.read_apply]
  show V c main_arg1 (((cfg1.win 0).blk t).view.emb (ix2 r f)) = V c main_arg1 (ix2 i f)
  congr 1
  funext a; apply Fin.ext
  match a with
  | ⟨0, _⟩ => show win1_0.index t (0 : Fin 2) * 4096 + 1 * r.val = i.val; rw [e0, hi]; omega
  | ⟨1, _⟩ => show win1_0.index t (1 : Fin 2) * 16 + 1 * f.val = f.val; rw [e1]; omega

/-- The matrix's block at any point is the whole matrix. -/
theorem matBlock1_apply (c : Dev nD) (t : Fin cfg1.N) (k : Fin 85) (f : Fin 16) :
    (iblk1 V c 1 t : Vec Ideal S85x16 .f32) (ix2 k f) = (V c main_v7 : S85x16.Idx → EReal) (ix2 k f) := by
  obtain ⟨-, -, e2, e3, -⟩ := blockIdx1 t
  unfold iblk1
  rw [View.read_apply]
  show V c main_v7 (((cfg1.win 1).blk t).view.emb (ix2 k f)) = V c main_v7 (ix2 k f)
  congr 1
  funext a; apply Fin.ext
  match a with
  | ⟨0, _⟩ => show win1_1.index t (0 : Fin 2) * 85 + 1 * k.val = k.val; rw [e2]; omega
  | ⟨1, _⟩ => show win1_1.index t (1 : Fin 2) * 16 + 1 * f.val = f.val; rw [e3]; omega

/-- The specification's result at (i, col): the three column ranges. -/
theorem OUT_ix2 (Fm : Cert.Spec.ArrF) (G : Cert.Spec.ArrQF) (i : Fin 262144) (col : Fin 117) :
    Cert.Spec.OUT Fm G (ix2 i col)
      = if h₁ : col.val < 16 then Fm (ix2 i ⟨col.val, h₁⟩)
        else if h₂ : col.val < 101 then Cert.Spec.fg Fm G i ⟨col.val - 16, by omega⟩
        else Cert.Spec.fgg Fm G i ⟨col.val - 101, by omega⟩ := rfl

/-- A block whose row r is row i of the features, beside a block that is the matrix: the body's result at
    (r, col) is the specification's at (i, col). -/
theorem pay1_eq_OUT (x0 : Vec Ideal S4096x16 .f32) (x1 : Vec Ideal S85x16 .f32) (Fm : Cert.Spec.ArrF) (G : Cert.Spec.ArrQF)
    (r : Fin 4096) (col : Fin 117) (i : Fin 262144)
    (h0 : ∀ f : Fin 16, x0 (ix2 r f) = Fm (ix2 i f))
    (h1 : ∀ (k : Fin 85) (f : Fin 16), x1 (ix2 k f) = G (ix2 k f)) :
    k1_pay1 (F := Ideal) x0 x1 (ix2 r col) = Cert.Spec.OUT Fm G (ix2 i col) := by
  rw [k1_pay1_apply, OUT_ix2]
  by_cases h₁ : col.val < 16
  · rw [dif_pos h₁, dif_pos h₁]; exact h0 _
  · rw [dif_neg h₁, dif_neg h₁]
    by_cases h₂ : col.val < 101
    · rw [dif_pos h₂, dif_pos h₂]
      unfold Cert.Spec.fg
      exact Finset.sum_congr rfl fun f _ => by rw [h0, h1]
    · rw [dif_neg h₂, dif_neg h₂]
      unfold Cert.Spec.fgg Cert.Spec.fg
      refine Finset.sum_congr rfl fun k _ => ?_
      rw [h1]
      congr 1
      exact Finset.sum_congr rfl fun f _ => by rw [h0, h1]

/-- The body's block at point t, entry (r, col), is the specification at row 4096·t + r, column col. -/
theorem pay1_at_point (c : Dev nD) (t : Fin cfg1.N) (r : Fin 4096) (col : Fin 117) (i : Fin 262144)
    (hi : i.val = 4096 * t.val + r.val) :
    k1_pay1 (F := Ideal) (iblk1 V c 0 t) (iblk1 V c 1 t) (ix2 r col)
      = Cert.Spec.OUT (V c main_arg1) (V c main_v7) (ix2 i col) :=
  pay1_eq_OUT (iblk1 V c 0 t) (iblk1 V c 1 t) (V c main_arg1) (V c main_v7) r col i
    (fun f => featBlock1_apply V c t r f i hi) (fun k f => matBlock1_apply V c t k f)

/-- What point t writes back is block t of the specification's result. -/
theorem flushed1_2_eq (c : Dev nD) (t : Fin cfg1.N) :
    (dat1 V c).flushed 2 t
      = ((cfg1.win 2).blk t).view.read (Elt Ideal) (Cert.Spec.OUT (V c main_arg1) (V c main_v7)) := by
  have hN : t.val < 64 := Nat.lt_of_lt_of_eq t.isLt N_1
  obtain ⟨-, -, -, -, e4, e5⟩ := blockIdx1 t
  show (cfg1.win 2).cut (grid1.coords t) ((dat1 V c).after 2 t) = _
  rw [after1_2]
  funext y
  rw [View.read_apply]
  have hy0 : (y 0).val < 4096 := (y 0).isLt
  have hy1 : (y 1).val < 117 := (y 1).isLt
  have hx : ((cfg1.win 2).xinj (grid1.coords t) y : S4096x117.Idx)
      = ix2 (⟨(y 0).val, hy0⟩ : Fin 4096) (⟨(y 1).val, hy1⟩ : Fin 117) := by
    funext a
    match a with
    | ⟨0, _⟩ => rfl
    | ⟨1, _⟩ => rfl
  show k1_pay1 (F := Ideal) (iblk1 V c 0 t) (iblk1 V c 1 t) ((cfg1.win 2).xinj (grid1.coords t) y)
      = Cert.Spec.OUT (V c main_arg1) (V c main_v7) (((cfg1.win 2).blk t).view.emb y)
  refine (congrArg (k1_pay1 (F := Ideal) (iblk1 V c 0 t) (iblk1 V c 1 t)) hx).trans ?_
  rw [pay1_at_point V c t ⟨(y 0).val, hy0⟩ ⟨(y 1).val, hy1⟩ ⟨4096 * t.val + (y 0).val, by omega⟩ rfl]
  congr 1
  funext a; apply Fin.ext
  match a with
  | ⟨0, _⟩ => show 4096 * t.val + (y 0).val = win1_2.index t (0 : Fin 2) * 4096 + 1 * (y 0).val; rw [e4]; omega
  | ⟨1, _⟩ => show (y 1).val = win1_2.index t (1 : Fin 2) * 117 + 1 * (y 1).val; rw [e5]; omega

/-- An index of the result array is in point t's block iff each coordinate is in the block's range on its axis. -/
theorem mem_blk1_2 (t : Fin cfg1.N) (i : S262144x117.Idx) :
    i ∈ ((cfg1.win 2).blk t).view.set ↔ ∀ a : Fin 2, win1_2.index t a * S4096x117.size a ≤ (i a).val
      ∧ (i a).val < win1_2.index t a * S4096x117.size a + S4096x117.size a := by
  show i ∈ ((View.whole main_v8).slice (win1_2.rect t)).set ↔ _
  rw [View.set_slice_whole, Rect.mem_set_unit]
  exact Iff.rfl

/-- Row i of the result array lies in the block of point i / 4096, which writes its block back. -/
theorem resultRows_cover1 (i : S262144x117.Idx) :
    ∃ t : Fin cfg1.N, (cfg1.win 2).flush t = true ∧ i ∈ ((cfg1.win 2).blk t).view.set := by
  have hi0 : (i 0).val < 262144 := (i 0).isLt
  have hi1 : (i 1).val < 117 := (i 1).isLt
  have hq : (i 0).val / 4096 < cfg1.N := by rw [show cfg1.N = 64 from N_1]; omega
  obtain ⟨-, -, -, -, e4, e5⟩ := blockIdx1 ⟨(i 0).val / 4096, hq⟩
  refine ⟨⟨(i 0).val / 4096, hq⟩, flush1_2 _, ?_⟩
  rw [mem_blk1_2]
  intro a
  match a with
  | ⟨0, _⟩ =>
    show win1_2.index ⟨(i 0).val / 4096, hq⟩ (0 : Fin 2) * 4096 ≤ (i 0).val
      ∧ (i 0).val < win1_2.index ⟨(i 0).val / 4096, hq⟩ (0 : Fin 2) * 4096 + 4096
    rw [e4]; show (i 0).val / 4096 * 4096 ≤ (i 0).val ∧ (i 0).val < (i 0).val / 4096 * 4096 + 4096; omega
  | ⟨1, _⟩ =>
    show win1_2.index ⟨(i 0).val / 4096, hq⟩ (1 : Fin 2) * 117 ≤ (i 1).val
      ∧ (i 1).val < win1_2.index ⟨(i 0).val / 4096, hq⟩ (1 : Fin 2) * 117 + 117
    rw [e5]; omega

/-- The second region's result array after the run. -/
theorem arr1_eq (c : Dev nD) :
    (dat1 V c).arrAt 2 cfg1.N = Cert.Spec.OUT (V c main_arg1) (V c main_v7) :=
  (dat1 V c).arrAt_eq_of_cover 2 (Cert.Spec.OUT (V c main_arg1) (V c main_v7))
    (fun t _ => flushed1_2_eq V c t) resultRows_cover1

end Cert.KernelIdeal.Hand

end
-- ==== Proof.KI.HostPrelude.lean ====
/-
  What the eight host operations before the first pallas_call leave in the four small operands, at the ideal
  values: the transposed table of kernel points; the kernel points' squared norms as a row (zero plus the sum
  over the three coordinates of the squares, reshaped 85 → 1 × 85); the squared widths as a row; the weights as a
  row. The two streamed arguments are written by no host operation.
-/
import proofs.«156445_j2207613190522_1_alg».proof.Proof.Gen.KernelIdeal.Launch
import proofs.«156445_j2207613190522_1_alg».proof.Proof.Gen.KernelIdeal.Regions
import proofs.«156445_j2207613190522_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe Idealize.ShloMosaic.StableHlo

variable (m : (ℓ : Loc nD τ sig) → Buf (Elt Ideal) ℓ)

/-- Core `c`'s unscoped buffers after the host operations. -/
abbrev afterHost (c : Dev nD) : Valuation τ sig (Elt Ideal) := StableHlo.after hostOps0 (fun b => m (c, b))

/-- The transposed table: entry (a, k) of the result is entry (k, a) of the kernel points. -/
theorem host_v0 (c : Dev nD) :
    afterHost m c (Proc.devRef .tc main_v0) = Cert.Spec.qtOf (m ((c : Thread nD τ).loc main_arg2)) := by
  -- the one operation that writes this array is the transpose of the kernel points
  have e : @Eq (S3x85.Idx → EReal) (afterHost m c (Proc.devRef .tc main_v0))
      (transpose S3x85 [1, 0] (m (c, Proc.devRef .tc main_arg2)) transposes_S85x3_S3x85_1_0) := by
    dsimp only [afterHost, hostOps0]; after_results
  refine e.trans ?_
  funext j
  obtain ⟨a, k, rfl⟩ : ∃ a k, j = ix2 a k := ⟨j 0, j 1, eq_ix2 j⟩
  -- a transpose by the permutation (1 0) read at (a, k) is its operand at (k, a)
  exact transpose_apply [1, 0] _ transposes_S85x3_S3x85_1_0 (ix2 a k) (ix2 k a)
    (fun b => match b with | ⟨0, _⟩ => rfl | ⟨1, _⟩ => rfl)

/-- The squared norms as a row: entry (0, k) is zero plus the sum over the three coordinates of the squares of
    kernel point k's coordinates. -/
theorem host_v3 (c : Dev nD) :
    afterHost m c (Proc.devRef .tc main_v3) = Cert.Spec.qnOf (m ((c : Thread nD τ).loc main_arg2)) := by
  -- the array is the 85 → 1 × 85 reshape of the sum over axis 1, from the zero constant, of the entrywise square
  have e : @Eq (S1x85.Idx → EReal) (afterHost m c (Proc.devRef .tc main_v3))
      (shapeCast S1x85 (Host.reduceAdd (F := Ideal)
        (mulf (F := Ideal) (s := S85x3) (φ := .f32) (m (c, Proc.devRef .tc main_arg2)) (m (c, Proc.devRef .tc main_arg2)))
        (constant (F := Ideal) S_ .f32 0x00000000#32) reducesTo_S85x3_S85_d1 h_S_) shapeCasts_S85_S1x85) := by
    dsimp only [afterHost, hostOps0]; after_results; rfl
  refine e.trans ?_
  funext j
  obtain ⟨a, k, rfl⟩ : ∃ a k, j = ix2 a k := ⟨j 0, j 1, eq_ix2 j⟩
  -- the reshape keeps row-major positions: (a, k) with a < 1 sits at position k, as does the vector's index k
  rw [shapeCast_apply _ shapeCasts_S85_S1x85 (ix2 a k) (ix1 k) (by
    rw [Shape.rowMajor_val_one, Shape.rowMajor_val_two]
    have := a.isLt
    show k.val = a.val * 85 + k.val
    omega)]
  -- at the ideal values the host's sum over one axis is the initial value plus the sum over that axis
  have h : S85x3.Reduces [1] S85 := by decide
  simp only [Host.reduceAdd, Ideal.hostReduceAdd_def]
  rw [Ideal.hostReduceAdd_single reducesTo_S85x3_S85_d1 h, constant_apply]
  unfold Cert.Spec.qnOf
  refine congrArg (Cert.Spec.zeroW + ·) (Finset.sum_congr rfl fun q _ => ?_)
  -- the index of the summed array over k with q inserted on axis 1 is (k, q)
  have hq : h.lift (ix1 k) q = ix2 k q :=
    funext fun d => Fin.ext (match d with | ⟨0, _⟩ => rfl | ⟨1, _⟩ => rfl)
  rw [mulf_apply, hq]
  rfl

/-- The squared widths as a row: entry (0, k) is the square of width k. -/
theorem host_v5 (c : Dev nD) :
    afterHost m c (Proc.devRef .tc main_v5) = Cert.Spec.odOf (m ((c : Thread nD τ).loc main_arg3)) := by
  -- the array is the 85 → 1 × 85 reshape of the entrywise square of the widths
  have e : @Eq (S1x85.Idx → EReal) (afterHost m c (Proc.devRef .tc main_v5))
      (shapeCast S1x85
        (mulf (F := Ideal) (s := S85) (φ := .f32) (m (c, Proc.devRef .tc main_arg3)) (m (c, Proc.devRef .tc main_arg3)))
        shapeCasts_S85_S1x85) := by
    dsimp only [afterHost, hostOps0]; after_results; rfl
  refine e.trans ?_
  funext j
  obtain ⟨a, k, rfl⟩ : ∃ a k, j = ix2 a k := ⟨j 0, j 1, eq_ix2 j⟩
  rw [shapeCast_apply _ shapeCasts_S85_S1x85 (ix2 a k) (ix1 k) (by
    rw [Shape.rowMajor_val_one, Shape.rowMajor_val_two]
    have := a.isLt
    show k.val = a.val * 85 + k.val
    omega)]
  rfl

/-- The weights as a row: entry (0, f) is weight f. -/
theorem host_v6 (c : Dev nD) :
    afterHost m c (Proc.devRef .tc main_v6) = Cert.Spec.wOf (m ((c : Thread nD τ).loc main_arg4)) := by
  -- the array is the 16 → 1 × 16 reshape of the weights
  have e : @Eq (S1x16.Idx → EReal) (afterHost m c (Proc.devRef .tc main_v6))
      (shapeCast S1x16 (m (c, Proc.devRef .tc main_arg4)) shapeCasts_S16_S1x16) := by
    dsimp only [afterHost, hostOps0]; after_results; rfl
  refine e.trans ?_
  funext j
  obtain ⟨a, k, rfl⟩ : ∃ a k, j = ix2 a k := ⟨j 0, j 1, eq_ix2 j⟩
  rw [shapeCast_apply _ shapeCasts_S16_S1x16 (ix2 a k) (ix1 k) (by
    rw [Shape.rowMajor_val_one, Shape.rowMajor_val_two]
    have := a.isLt
    show k.val = a.val * 16 + k.val
    omega)]
  rfl

/-- The points and the features are among the arrays no host operation writes: they keep their launch contents. -/
theorem host_arg0 (c : Dev nD) :
    afterHost m c (Proc.devRef .tc main_arg0) = m ((c : Thread nD τ).loc main_arg0) :=
  StableHlo.after_of_writes_sub hostOps0 _ hostOps0_writes (by decide)
theorem host_arg1 (c : Dev nD) :
    afterHost m c (Proc.devRef .tc main_arg1) = m ((c : Thread nD τ).loc main_arg1) :=
  StableHlo.after_of_writes_sub hostOps0 _ hostOps0_writes (by decide)

end Cert.KernelIdeal.Hand

end
-- ==== Proof.SpecLaw.lean ====
/-
  The kernel's arrangement of the kernel feature matrix equals the reference's, for finite points and kernel
  points: |x|² + |q|² − 2 x·q = Σ_c (x_c − q_c)² is a polynomial identity over the reals, the quotient by the
  squared width and the exponential are the same operations on both sides, and scaling the sum by the weight
  on the right or on the left is commutativity of the product.
-/
import proofs.«156445_j2207613190522_1_alg».proof.Proof.Spec

noncomputable section

open scoped BigOperators

namespace Cert.Spec

open Idealize.ShloMosaic Idealize.ShloMosaic.ValueIdx

/-- The float word for two denotes the real number 2. -/
theorem twoW_eq : twoW = ((2 : ℝ) : EReal) := by
  simp [twoW, Ideal.ofBits, Ideal.ieee, -EReal.coe_mul]; norm_num

/-- The float word for zero denotes 0. -/
theorem zeroW_eq : zeroW = 0 := Ideal.ofBits_zero_f32

/-- The polynomial identity on real numbers embedded in the extended reals: with the three coordinates of the
    point and of the kernel point real, |x|² + (0 + |q|²) − 2 · x·q = 0 + Σ_c (x_c − q_c)². -/
theorem expand_real (x0 x1 x2 q0 q1 q2 : ℝ) :
    (((x0 : EReal) * x0 + (x1 : EReal) * x1) + (x2 : EReal) * x2)
        + ((0 : EReal) + (((q0 : EReal) * q0 + (q1 : EReal) * q1) + (q2 : EReal) * q2))
        - ((2 : ℝ) : EReal) * ((((x0 : EReal) * q0 + (x1 : EReal) * q1)) + (x2 : EReal) * q2)
      = (0 : EReal) + ((((x0 : EReal) - q0) * ((x0 : EReal) - q0) + ((x1 : EReal) - q1) * ((x1 : EReal) - q1))
          + ((x2 : EReal) - q2) * ((x2 : EReal) - q2)) := by
  simp only [zero_add, ← EReal.coe_mul, ← EReal.coe_add, ← EReal.coe_sub]
  congr 1
  ring

/-- With every coordinate of the point and of the kernel point a real number, the expanded squared distance
    over the host's transposed table and norms is the sum of squared differences. -/
theorem dist2K_eq_dist2 (X : ArrX) (Q : ArrQ) (hX : ∀ j, ∃ r : ℝ, X j = (r : EReal)) (hQ : ∀ j, ∃ r : ℝ, Q j = (r : EReal))
    (i : Fin 262144) (k : Fin 85) : dist2K X (qtOf Q) (qnOf Q) i k = dist2 X Q i k := by
  obtain ⟨x0, h0⟩ := hX (ix2 i 0)
  obtain ⟨x1, h1⟩ := hX (ix2 i 1)
  obtain ⟨x2, h2⟩ := hX (ix2 i 2)
  obtain ⟨q0, g0⟩ := hQ (ix2 k 0)
  obtain ⟨q1, g1⟩ := hQ (ix2 k 1)
  obtain ⟨q2, g2⟩ := hQ (ix2 k 2)
  -- the host's table is the transpose, and its norm row is the sum of the squared coordinates
  have e0 : qtOf Q (ix2 0 k) = Q (ix2 k 0) := rfl
  have e1 : qtOf Q (ix2 1 k) = Q (ix2 k 1) := rfl
  have e2 : qtOf Q (ix2 2 k) = Q (ix2 k 2) := rfl
  have en : qnOf Q (ix2 0 k) = zeroW + ∑ c : Fin 3, Q (ix2 k c) * Q (ix2 k c) := rfl
  unfold dist2K dist2
  rw [e0, e1, e2, en, Fin.sum_univ_three, Fin.sum_univ_three, h0, h1, h2, g0, g1, g2, zeroW_eq, twoW_eq]
  exact expand_real x0 x1 x2 q0 q1 q2

/-- The kernel's matrix, from what the host lines make of Q, D and W, is the reference's. -/
theorem qfK_eq_QF (X : ArrX) (Fm : ArrF) (Q : ArrQ) (D : ArrD) (W : ArrW)
    (hX : ∀ j, ∃ r : ℝ, X j = (r : EReal)) (hQ : ∀ j, ∃ r : ℝ, Q j = (r : EReal)) :
    qfK (qtOf Q) (qnOf Q) (odOf D) (wOf W) X Fm = QF X Fm Q D W := by
  funext j
  -- the weights agree entry by entry: equal squared distances, the same squared width, the same operations
  have hw : ∀ i : Fin 262144, wgtK X (qtOf Q) (qnOf Q) (odOf D) i (j 0) = wgt X Q D i (j 0) := by
    intro i
    have eo : odOf D (ix2 0 (j 0)) = D (ix1 (j 0)) * D (ix1 (j 0)) := rfl
    unfold wgtK wgt
    rw [dist2K_eq_dist2 X Q hX hQ i (j 0), eo]
  have ew : wOf W (ix2 0 (j 1)) = W (ix1 (j 1)) := rfl
  unfold qfK QF
  rw [ew, mul_comm]
  refine congrArg (fun s => W (ix1 (j 1)) * s) ?_
  exact Finset.sum_congr rfl (fun i _ => by rw [hw i])

end Cert.Spec

end
-- ==== Proof.KI.Result.lean ====
/-
  The idealized kernel's result array as the specification: the second region leaves OUT of the features and of
  the matrix it finds; the features it finds are the launch contents and the matrix is what the first region
  left, which is the kernel's arrangement of the kernel feature matrix over what the host operations made of
  the kernel points, the widths and the weights; for finite points and kernel points that is the reference's
  arrangement.
-/
import proofs.«156445_j2207613190522_1_alg».proof.Proof.KI.Launch
import proofs.«156445_j2207613190522_1_alg».proof.Proof.KI.Value0
import proofs.«156445_j2207613190522_1_alg».proof.Proof.KI.Value1
import proofs.«156445_j2207613190522_1_alg».proof.Proof.KI.HostPrelude
import proofs.«156445_j2207613190522_1_alg».proof.Proof.SpecLaw

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The result array after the run, for finite points and kernel points. -/
theorem result_eq (c : Dev nD)
    (hX : ∀ j, ∃ r : ℝ, m ((c : Thread nD τ).loc main_arg0) j = (r : EReal))
    (hQ : ∀ j, ∃ r : ℝ, m ((c : Thread nD τ).loc main_arg2) j = (r : EReal)) :
    (dat1 (R2 m) c).arrAt 2 cfg1.N
      = Cert.Spec.OUT (m ((c : Thread nD τ).loc main_arg1))
          (Cert.Spec.QF (m ((c : Thread nD τ).loc main_arg0)) (m ((c : Thread nD τ).loc main_arg1)) (m ((c : Thread nD τ).loc main_arg2))
            (m ((c : Thread nD τ).loc main_arg3)) (m ((c : Thread nD τ).loc main_arg4))) := by
  rw [arr1_eq (R2 m) c, R2_main_arg1 m c, R2_main_v7 m c, arr0_eq (R1 m) c]
  rw [show R1 m c main_v0 = _ from host_v0 m c, show R1 m c main_v3 = _ from host_v3 m c,
    show R1 m c main_v5 = _ from host_v5 m c, show R1 m c main_v6 = _ from host_v6 m c,
    show R1 m c main_arg0 = _ from host_arg0 m c, show R1 m c main_arg1 = _ from host_arg1 m c]
  rw [Cert.Spec.qfK_eq_QF _ _ _ _ _ hX hQ]

end Cert.KernelIdeal.Hand

end
-- ==== Proof.RefValue.lean ====
/-
  The reference's result, read operation by operation at an index, is the specification: its stage 15 is the
  kernel feature matrix QF of the five arguments, and its last stage is OUT of the features and that matrix.
-/
import proofs.«156445_j2207613190522_1_alg».proof.Proof.Gen.ReferenceIdeal.Read
import proofs.«156445_j2207613190522_1_alg».proof.Proof.Spec

noncomputable section

open scoped BigOperators

namespace Cert.RefValue

open Cert.ReferenceIdeal Cert.ReferenceIdeal.Gen Cert.ReferenceIdeal.Read
open Idealize.ShloMosaic Idealize.ShloMosaic.ValueIdx Idealize.ShloMosaic.TcCoe

/-- Stage 6 at (k, i) is the squared distance of point `i` to kernel point `k`: the zero word plus the sum over
    the three coordinates of the squared difference, each operand read through its two broadcasts. -/
theorem dist2_eq (x0 : (⟨S262144x3, .f32⟩ : BufTy).Contents (Elt Ideal)) (x2 : (⟨S85x3, .f32⟩ : BufTy).Contents (Elt Ideal))
    (k : Fin 85) (i : Fin 262144) :
    val_main_v6 (F := Ideal) x0 x2 (ix2 k i) = Cert.Spec.dist2 x0 x2 i k := by
  rw [val_main_v6_apply, val_main_cst_apply]
  unfold Cert.Spec.dist2
  refine congrArg₂ (· + ·) rfl (Finset.sum_congr rfl fun c _ => ?_)
  have e0 : idx_main_v0 (idx_main_v2 (idx_main_v6 (ix2 k i) c)) = ix2 i c :=
    funext fun a => Fin.ext (by match a with | ⟨0, _⟩ => rfl | ⟨1, _⟩ => rfl)
  have e1 : idx_main_v1 (idx_main_v3 (idx_main_v6 (ix2 k i) c)) = ix2 k c :=
    funext fun a => Fin.ext (by match a with | ⟨0, _⟩ => rfl | ⟨1, _⟩ => rfl)
  rw [val_main_v5_apply, val_main_v4_apply, val_main_v2_apply, val_main_v3_apply, val_main_v0_apply,
    val_main_v1_apply, e0, e1]
  rfl

/-- Stage 11 at (k, i) is the weight of point `i` at kernel point `k`: the exponential of the squared distance
    over the squared width, the width read through its two broadcasts. -/
theorem wgt_eq (x0 : (⟨S262144x3, .f32⟩ : BufTy).Contents (Elt Ideal)) (x2 : (⟨S85x3, .f32⟩ : BufTy).Contents (Elt Ideal))
    (x3 : (⟨S85, .f32⟩ : BufTy).Contents (Elt Ideal)) (k : Fin 85) (i : Fin 262144) :
    val_main_v11 (F := Ideal) x0 x2 x3 (ix2 k i) = Cert.Spec.wgt x0 x2 x3 i k := by
  have e : idx_main_v8 (idx_main_v9 (ix2 k i)) = ix1 k :=
    funext fun a => Fin.ext (by match a with | ⟨0, _⟩ => rfl)
  rw [val_main_v11_apply, val_main_v10_apply, val_main_v9_apply, val_main_v8_apply, val_main_v7_apply, e, dist2_eq]
  rfl

/-- The reference's kernel feature matrix is the specification's. -/
theorem qf_eq (x0 : (⟨S262144x3, .f32⟩ : BufTy).Contents (Elt Ideal)) (x1 : (⟨S262144x16, .f32⟩ : BufTy).Contents (Elt Ideal))
    (x2 : (⟨S85x3, .f32⟩ : BufTy).Contents (Elt Ideal)) (x3 : (⟨S85, .f32⟩ : BufTy).Contents (Elt Ideal))
    (x4 : (⟨S16, .f32⟩ : BufTy).Contents (Elt Ideal)) :
    val_main_v15 (F := Ideal) x0 x1 x2 x3 x4 = Cert.Spec.QF x0 x1 x2 x3 x4 := by
  funext j
  obtain ⟨p, q, rfl⟩ : ∃ (p : Fin 85) (q : Fin 16), j = ix2 p q := ⟨j 0, j 1, eq_ix2 j⟩
  have e4 : idx_main_v13 (idx_main_v14 (ix2 p q)) = ix1 q :=
    funext fun a => Fin.ext (by match a with | ⟨0, _⟩ => rfl)
  rw [val_main_v15_apply, val_main_v14_apply, val_main_v13_apply, val_main_v12_apply, e4]
  unfold Cert.Spec.QF
  refine congrArg₂ (· * ·) rfl (Finset.sum_congr rfl fun k _ => ?_)
  have el : lidx_main_v12 (ix2 p q) k = ix2 p k :=
    funext fun a => Fin.ext (by match a with | ⟨0, _⟩ => rfl | ⟨1, _⟩ => rfl)
  have er : ridx_main_v12 (ix2 p q) k = ix2 k q :=
    funext fun a => Fin.ext (by match a with | ⟨0, _⟩ => rfl | ⟨1, _⟩ => rfl)
  rw [el, er, wgt_eq]

/-- Stage 17 at (i, k) is row `i` of the features against row `k` of stage 15: the second operand is the
    transpose of stage 15, so the contraction runs over the columns of both. -/
theorem fg_eq (x0 : (⟨S262144x3, .f32⟩ : BufTy).Contents (Elt Ideal)) (x1 : (⟨S262144x16, .f32⟩ : BufTy).Contents (Elt Ideal))
    (x2 : (⟨S85x3, .f32⟩ : BufTy).Contents (Elt Ideal)) (x3 : (⟨S85, .f32⟩ : BufTy).Contents (Elt Ideal))
    (x4 : (⟨S16, .f32⟩ : BufTy).Contents (Elt Ideal)) (i : Fin 262144) (k : Fin 85) :
    val_main_v17 (F := Ideal) x0 x1 x2 x3 x4 (ix2 i k)
      = Cert.Spec.fg x1 (val_main_v15 (F := Ideal) x0 x1 x2 x3 x4) i k := by
  rw [val_main_v17_apply]
  unfold Cert.Spec.fg
  refine Finset.sum_congr rfl fun f _ => ?_
  have el : lidx_main_v17 (ix2 i k) f = ix2 i f :=
    funext fun a => Fin.ext (by match a with | ⟨0, _⟩ => rfl | ⟨1, _⟩ => rfl)
  have er : idx_main_v16 (ridx_main_v17 (ix2 i k) f) = ix2 k f :=
    funext fun a => Fin.ext (by match a with | ⟨0, _⟩ => rfl | ⟨1, _⟩ => rfl)
  rw [val_main_v16_apply, el, er]

/-- Stage 18 at (i, f) is the sum over the kernel points of stage 17 at (i, k) times stage 15 at (k, f). -/
theorem fgg_eq (x0 : (⟨S262144x3, .f32⟩ : BufTy).Contents (Elt Ideal)) (x1 : (⟨S262144x16, .f32⟩ : BufTy).Contents (Elt Ideal))
    (x2 : (⟨S85x3, .f32⟩ : BufTy).Contents (Elt Ideal)) (x3 : (⟨S85, .f32⟩ : BufTy).Contents (Elt Ideal))
    (x4 : (⟨S16, .f32⟩ : BufTy).Contents (Elt Ideal)) (i : Fin 262144) (f : Fin 16) :
    val_main_v18 (F := Ideal) x0 x1 x2 x3 x4 (ix2 i f)
      = Cert.Spec.fgg x1 (val_main_v15 (F := Ideal) x0 x1 x2 x3 x4) i f := by
  rw [val_main_v18_apply]
  unfold Cert.Spec.fgg
  refine Finset.sum_congr rfl fun k _ => ?_
  have el : lidx_main_v18 (ix2 i f) k = ix2 i k :=
    funext fun a => Fin.ext (by match a with | ⟨0, _⟩ => rfl | ⟨1, _⟩ => rfl)
  have er : ridx_main_v18 (ix2 i f) k = ix2 k f :=
    funext fun a => Fin.ext (by match a with | ⟨0, _⟩ => rfl | ⟨1, _⟩ => rfl)
  rw [el, er, fg_eq]

/-! The specification's result in its three column ranges, at an index given by its coordinates. -/

theorem OUT_lo (Fm : Cert.Spec.ArrF) (G : Cert.Spec.ArrQF) (r : Fin 262144) (c : Fin 117) (h₁ : c.val < 16) :
    Cert.Spec.OUT Fm G (ix2 r c) = Fm (ix2 r ⟨c.val, h₁⟩) := dif_pos h₁

theorem OUT_mid (Fm : Cert.Spec.ArrF) (G : Cert.Spec.ArrQF) (r : Fin 262144) (c : Fin 117) (h₁ : ¬c.val < 16)
    (h₂ : c.val < 101) :
    Cert.Spec.OUT Fm G (ix2 r c) = Cert.Spec.fg Fm G r ⟨c.val - 16, by omega⟩ :=
  (dif_neg h₁).trans (dif_pos h₂)

theorem OUT_hi (Fm : Cert.Spec.ArrF) (G : Cert.Spec.ArrQF) (r : Fin 262144) (c : Fin 117) (h₁ : ¬c.val < 16)
    (h₂ : ¬c.val < 101) :
    Cert.Spec.OUT Fm G (ix2 r c) = Cert.Spec.fgg Fm G r ⟨c.val - 101, by have := c.isLt; omega⟩ :=
  (dif_neg h₁).trans (dif_neg h₂)

/-- The last stage joins the features (16 columns), stage 17 (85 columns) and stage 18 (16 columns) along the
    columns; a column below 16 falls in the first piece, one below 101 in the second at 16 less, any other in
    the third at 101 less. That is `OUT` of the features and stage 15. -/
theorem out_eq_v15 (x0 : (⟨S262144x3, .f32⟩ : BufTy).Contents (Elt Ideal)) (x1 : (⟨S262144x16, .f32⟩ : BufTy).Contents (Elt Ideal))
    (x2 : (⟨S85x3, .f32⟩ : BufTy).Contents (Elt Ideal)) (x3 : (⟨S85, .f32⟩ : BufTy).Contents (Elt Ideal))
    (x4 : (⟨S16, .f32⟩ : BufTy).Contents (Elt Ideal)) :
    val_main_v19 (F := Ideal) x0 x1 x2 x3 x4
      = Cert.Spec.OUT x1 (val_main_v15 (F := Ideal) x0 x1 x2 x3 x4) := by
  funext j
  obtain ⟨r, c, rfl⟩ : ∃ (r : Fin 262144) (c : Fin 117), j = ix2 r c := ⟨j 0, j 1, eq_ix2 j⟩
  have hc := c.isLt
  unfold val_main_v19
  by_cases h₁ : c.val < 16
  · rw [OUT_lo _ _ r c h₁]
    exact concatenate_apply_piece (1 : Fin S262144x117.rank) _ _ (ix2 r c) 0 (by show 0 < 3; decide) S262144x16 x1 rfl rfl 0 rfl
      (ix2 r ⟨c.val, h₁⟩) (fun b hb => by match b with | ⟨0, _⟩ => rfl | ⟨1, _⟩ => exact absurd rfl hb)
      (Nat.zero_add _)
  · by_cases h₂ : c.val < 101
    · rw [OUT_mid _ _ r c h₁ h₂, ← fg_eq]
      exact concatenate_apply_piece (1 : Fin S262144x117.rank) _ _ (ix2 r c) 1 (by show 1 < 3; decide) S262144x85
        (val_main_v17 (F := Ideal) x0 x1 x2 x3 x4) rfl rfl 16 rfl
        (ix2 r ⟨c.val - 16, by omega⟩) (fun b hb => by match b with | ⟨0, _⟩ => rfl | ⟨1, _⟩ => exact absurd rfl hb)
        (by show 16 + (c.val - 16) = c.val; omega)
    · rw [OUT_hi _ _ r c h₁ h₂, ← fgg_eq]
      exact concatenate_apply_piece (1 : Fin S262144x117.rank) _ _ (ix2 r c) 2 (by show 2 < 3; decide) S262144x16
        (val_main_v18 (F := Ideal) x0 x1 x2 x3 x4) rfl rfl 101 rfl
        (ix2 r ⟨c.val - 101, by omega⟩) (fun b hb => by match b with | ⟨0, _⟩ => rfl | ⟨1, _⟩ => exact absurd rfl hb)
        (by show 101 + (c.val - 101) = c.val; omega)

/-- The reference's result is `OUT` of the features and its kernel feature matrix. -/
theorem out_eq (x0 : (⟨S262144x3, .f32⟩ : BufTy).Contents (Elt Ideal)) (x1 : (⟨S262144x16, .f32⟩ : BufTy).Contents (Elt Ideal))
    (x2 : (⟨S85x3, .f32⟩ : BufTy).Contents (Elt Ideal)) (x3 : (⟨S85, .f32⟩ : BufTy).Contents (Elt Ideal))
    (x4 : (⟨S16, .f32⟩ : BufTy).Contents (Elt Ideal)) :
    val_main_v19 (F := Ideal) x0 x1 x2 x3 x4 = Cert.Spec.OUT x1 (Cert.Spec.QF x0 x1 x2 x3 x4) := by
  rw [out_eq_v15, qf_eq]

end Cert.RefValue

end
-- ==== Proof.Finite.lean ====
/-
  The precondition says every entry of every float argument has absolute value below +∞. On the extended
  reals that makes each entry a real number; the value proof uses it for the points X and the kernel
  points Q only.
-/
import proofs.«156445_j2207613190522_1_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The rank-0 shape has exactly one index: the empty tuple. -/
instance : Subsingleton S_.Idx := ⟨fun a b => funext fun d => d.elim0⟩

/-- The word 0x7F800000 denotes +∞, and |x| = max x (-x). If |x| < +∞ then x is neither -∞ nor +∞ (both have
    absolute value +∞, which is not below itself), so x is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One argument's conjunct, for any shape: if the conjunction over all axes of "|x i| < +∞" is 1, every entry of
    x is real. The conjunction being 1 makes every compared element 1; the broadcast of the scalar +∞ reads +∞ at
    every index, so the element fact is the scalar one above. -/
theorem real_of_all {s : Shape} {axes : List (Fin s.rank)} (x : FVec Ideal s .f32)
    (b : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] b (constant S_ .f32 0x7F800000#32))) init hr hu j = 1#1)
    (i : s.Idx) : ∃ r : ℝ, x i = (r : EReal) :=
  real_of_abs_lt_top (x i) (Host.reduce_andi_all _ init hr hu j e i)

/-- If the printed predicate is all ones at the ideal values, every entry of the first argument (the points) and
    of the third (the kernel points) is a real number. -/
theorem real_of_pre (x0 : FVec Ideal S262144x3 .f32) (x1 : FVec Ideal S262144x16 .f32) (x2 : FVec Ideal S85x3 .f32)
    (x3 : FVec Ideal S85 .f32) (x4 : FVec Ideal S16 .f32)
    (h : Cert.Pre_finite_inputs.fn (F := Ideal) x0 x1 x2 x3 x4 = fun _ => 1#1) :
    (∀ j, ∃ r : ℝ, x0 j = (r : EReal)) ∧ (∀ j, ∃ r : ℝ, x2 j = (r : EReal)) := by
  -- the predicate is a rank-0 word; read it at its one index
  have h0 := congrFun h ValueIdx.ix0
  dsimp only [Cert.Pre_finite_inputs.fn, Cert.Pre_finite_inputs.fn_part1] at h0
  -- the word is ((((c0 ∧ c1) ∧ c2) ∧ c3) ∧ c4): peel the conjuncts from the outside
  obtain ⟨h0123, _⟩ := IntOp.andi_eq_one.1 h0
  obtain ⟨h012, _⟩ := IntOp.andi_eq_one.1 h0123
  obtain ⟨h01, hc2⟩ := IntOp.andi_eq_one.1 h012
  obtain ⟨hc0, _⟩ := IntOp.andi_eq_one.1 h01
  exact ⟨fun j => real_of_all x0 _ _ _ _ _ hc0 j, fun j => real_of_all x2 _ _ _ _ _ hc2 j⟩

end Cert.Finite

end
-- ==== Proof.lean ====
/-
  The five claims.

  Both printed kernels run to the end from any memory and leave their arguments as launched: the run of @main as
  one host stretch and two kernel regions, stated for any float instance, read at the word-level instance for the
  kernel as printed and at the ideal instance for its idealization. The reference's frame is its run with the
  result dropped. The ideal pass rewrote nothing, so there is nothing to preserve.

  At the ideal instance both programs end with the same array: row i is the features F i, then (F · QFᵀ) i, then
  (F · QFᵀ · QF) i, where QF k f = W f · Σᵢ exp(|X i − Q k|² / (D k)²) · F i f. The reference computes the squared
  distance as a sum of squared differences over a 85 × 262144 × 3 array; the kernel expands the square,
  accumulates the sum over 128 blocks of 2048 points, and scales on the other side. The two agree when the
  points and kernel points are finite, which the precondition says.
-/
import proofs.«156445_j2207613190522_1_alg».proof.Defs
import proofs.«156445_j2207613190522_1_alg».proof.Proof.Gen.Kernel
import proofs.«156445_j2207613190522_1_alg».proof.Proof.Gen.KernelIdeal
import proofs.«156445_j2207613190522_1_alg».proof.Proof.Gen.ReferenceIdeal
import proofs.«156445_j2207613190522_1_alg».proof.Proof.Gen.Pre_finite_inputs
import proofs.«156445_j2207613190522_1_alg».proof.Proof.Gen.ReferenceIdeal.Run
import proofs.«156445_j2207613190522_1_alg».proof.Proof.Gen.ReferenceIdeal.Read
import proofs.«156445_j2207613190522_1_alg».proof.Proof.K.Launch
import proofs.«156445_j2207613190522_1_alg».proof.Proof.KI.Result
import proofs.«156445_j2207613190522_1_alg».proof.Proof.RefValue
import proofs.«156445_j2207613190522_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's array of the (agreeing) arguments. -/
theorem algebraic : Cert.algebraic_KernelIdeal_ReferenceIdeal := by
  intro m ρ m' ρ' hpre hagree
  refine ⟨fun c => Cert.Spec.OUT (m ((c.tc : Thread Cert.KernelIdeal.nD Cert.KernelIdeal.τ).loc Cert.KernelIdeal.main_arg1))
      (Cert.Spec.QF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · refine (θ_run Cert.KernelIdeal.defs _ _).mono (fun _ h c => ⟨(h c).1.trans ?_, (h c).2⟩)
      (Cert.KernelIdeal.Hand.run (F := Ideal) m ρ)
    obtain ⟨hX, hQ⟩ := Cert.Finite.real_of_pre _ _ _ _ _ (hpre c)
    exact Cert.KernelIdeal.Hand.result_eq m c hX hQ
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.RefValue.out_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
